-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x512 : Shape := ⟨3, ![4096, 128, 512]⟩
abbrev S512x48 : Shape := ⟨2, ![512, 48]⟩
abbrev S48 : Shape := ⟨1, ![48]⟩
abbrev S1x512x32 : Shape := ⟨3, ![1, 512, 32]⟩
abbrev S_ : Shape := ⟨0, ![]⟩

class Facts : Prop where
  bcast_S_S4096x128x512 : S_.BroadcastsInDim S4096x128x512 (![] : Fin 0 → Fin S4096x128x512.rank)
  reducesTo_S4096x128x512_S_d0_1_2 : S4096x128x512.ReducesTo [0, 1, 2] S_
  h_S_ : 0 < S_.numel
  bcast_S_S512x48 : S_.BroadcastsInDim S512x48 (![] : Fin 0 → Fin S512x48.rank)
  reducesTo_S512x48_S_d0_1 : S512x48.ReducesTo [0, 1] S_
  bcast_S_S48 : S_.BroadcastsInDim S48 (![] : Fin 0 → Fin S48.rank)
  reducesTo_S48_S_d0 : S48.ReducesTo [0] S_
  bcast_S_S1x512x32 : S_.BroadcastsInDim S1x512x32 (![] : Fin 0 → Fin S1x512x32.rank)
  reducesTo_S1x512x32_S_d0_1_2 : S1x512x32.ReducesTo [0, 1, 2] S_

variable [Facts]

def fn_part2 {F : FTy → Type} [FloatOps F] (main_arg5 : FVec F S48 .f32) (main_v33 : IVec S_ 1) : IVec S_ 1 :=
  let main_cst_12 : FVec F S_ .f32 := constant S_ .f32 0x00000000#32
  let main_v34 : FVec F S48 .f32 := broadcastInDim S48 ![] bcast_S_S48 main_cst_12
  let main_v35 : IVec S48 1 := cmpf .oge main_arg5 main_v34
  let main_c_13 : IVec S_ 1 := constantI S_ 1 1#1
  let main_v36 : IVec S_ 1 := (fun x v => Host.reduce IntOp.andi x v reducesTo_S48_S_d0 h_S_) main_v35 main_c_13
  let main_v37 : IVec S_ 1 := andi main_v33 main_v36
  main_v37

def fn_part1 {F : FTy → Type} [FloatOps F] (main_arg4 : FVec F S48 .f32) (main_arg5 : FVec F S48 .f32) (main_arg6 : FVec F S1x512x32 .f32) (main_v13 : IVec S_ 1) (main_v16 : IVec S48 1) : IVec S_ 1 :=
  let main_c_5 : IVec S_ 1 := constantI S_ 1 1#1
  let main_v17 : IVec S_ 1 := (fun x v => Host.reduce IntOp.andi x v reducesTo_S48_S_d0 h_S_) main_v16 main_c_5
  let main_v18 : IVec S_ 1 := andi main_v13 main_v17
  let main_v19 : FVec F S48 .f32 := Host.absf main_arg4
  let main_cst_6 : FVec F S_ .f32 := constant S_ .f32 0x7F800000#32
  let main_v20 : FVec F S48 .f32 := broadcastInDim S48 ![] bcast_S_S48 main_cst_6
  let main_v21 : IVec S48 1 := cmpf .olt main_v19 main_v20
  let main_c_7 : IVec S_ 1 := constantI S_ 1 1#1
  let main_v22 : IVec S_ 1 := (fun x v => Host.reduce IntOp.andi x v reducesTo_S48_S_d0 h_S_) main_v21 main_c_7
  let main_v23 : IVec S_ 1 := andi main_v18 main_v22
  let main_v24 : FVec F S48 .f32 := Host.absf main_arg5
  let main_cst_8 : FVec F S_ .f32 := constant S_ .f32 0x7F800000#32
  let main_v25 : FVec F S48 .f32 := broadcastInDim S48 ![] bcast_S_S48 main_cst_8
  let main_v26 : IVec S48 1 := cmpf .olt main_v24 main_v25
  let main_c_9 : IVec S_ 1 := constantI S_ 1 1#1
  let main_v27 : IVec S_ 1 := (fun x v => Host.reduce IntOp.andi x v reducesTo_S48_S_d0 h_S_) main_v26 main_c_9
  let main_v28 : IVec S_ 1 := andi main_v23 main_v27
  let main_v29 : FVec F S1x512x32 .f32 := Host.absf main_arg6
  let main_cst_10 : FVec F S_ .f32 := constant S_ .f32 0x7F800000#32
  let main_v30 : FVec F S1x512x32 .f32 := broadcastInDim S1x512x32 ![] bcast_S_S1x512x32 main_cst_10
  let main_v31 : IVec S1x512x32 1 := cmpf .olt main_v29 main_v30
  let main_c_11 : IVec S_ 1 := constantI S_ 1 1#1
  let main_v32 : IVec S_ 1 := (fun x v => Host.reduce IntOp.andi x v reducesTo_S1x512x32_S_d0_1_2 h_S_) main_v31 main_c_11
  let main_v33 : IVec S_ 1 := andi main_v28 main_v32
  fn_part2 (F := F) main_arg5 main_v33

def fn {F : FTy → Type} [FloatOps F] (main_arg0 : FVec F S4096x128x512 .f32) (main_arg1 : FVec F S512x48 .f32) (main_arg2 : FVec F S48 .f32) (main_arg3 : FVec F S48 .f32) (main_arg4 : FVec F S48 .f32) (main_arg5 : FVec F S48 .f32) (main_arg6 : FVec F S1x512x32 .f32) : IVec S_ 1 :=
  let main_v0 : FVec F S4096x128x512 .f32 := Host.absf main_arg0
  let main_cst : FVec F S_ .f32 := constant S_ .f32 0x7F800000#32
  let main_v1 : FVec F S4096x128x512 .f32 := broadcastInDim S4096x128x512 ![] bcast_S_S4096x128x512 main_cst
  let main_v2 : IVec S4096x128x512 1 := cmpf .olt main_v0 main_v1
  let main_c : IVec S_ 1 := constantI S_ 1 1#1
  let main_v3 : IVec S_ 1 := (fun x v => Host.reduce IntOp.andi x v reducesTo_S4096x128x512_S_d0_1_2 h_S_) main_v2 main_c
  let main_v4 : FVec F S512x48 .f32 := Host.absf main_arg1
  let main_cst_0 : FVec F S_ .f32 := constant S_ .f32 0x7F800000#32
  let main_v5 : FVec F S512x48 .f32 := broadcastInDim S512x48 ![] bcast_S_S512x48 main_cst_0
  let main_v6 : IVec S512x48 1 := cmpf .olt main_v4 main_v5
  let main_c_1 : IVec S_ 1 := constantI S_ 1 1#1
  let main_v7 : IVec S_ 1 := (fun x v => Host.reduce IntOp.andi x v reducesTo_S512x48_S_d0_1 h_S_) main_v6 main_c_1
  let main_v8 : IVec S_ 1 := andi main_v3 main_v7
  let main_v9 : FVec F S48 .f32 := Host.absf main_arg2
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  let main_v14 : FVec F S48 .f32 := Host.absf main_arg3
  let main_cst_4 : FVec F S_ .f32 := constant S_ .f32 0x7F800000#32
  let main_v15 : FVec F S48 .f32 := broadcastInDim S48 ![] bcast_S_S48 main_cst_4
  let main_v16 : IVec S48 1 := cmpf .olt main_v14 main_v15
  fn_part1 (F := F) main_arg4 main_arg5 main_arg6 main_v13 main_v16
-- ==== Kernel.lean ====
abbrev S4096x128x512 : Shape := ⟨3, ![4096, 128, 512]⟩
abbrev S512x48 : Shape := ⟨2, ![512, 48]⟩
abbrev S48 : Shape := ⟨1, ![48]⟩
abbrev S1x512x32 : Shape := ⟨3, ![1, 512, 32]⟩
abbrev S_ : Shape := ⟨0, ![]⟩
abbrev S1x48 : Shape := ⟨2, ![1, 48]⟩
abbrev S1x32x512 : Shape := ⟨3, ![1, 32, 512]⟩
abbrev S4096x512x32 : Shape := ⟨3, ![4096, 512, 32]⟩
abbrev S32x128x512 : Shape := ⟨3, ![32, 128, 512]⟩
abbrev S32x512x32 : Shape := ⟨3, ![32, 512, 32]⟩
abbrev S4096x512 : Shape := ⟨2, ![4096, 512]⟩
abbrev S4096x48 : Shape := ⟨2, ![4096, 48]⟩
abbrev S4096 : Shape := ⟨1, ![4096]⟩
abbrev S4096x1 : Shape := ⟨2, ![4096, 1]⟩
abbrev S4096x32 : Shape := ⟨2, ![4096, 32]⟩
abbrev S32x128x32 : Shape := ⟨3, ![32, 128, 32]⟩
abbrev S32x32x512 : Shape := ⟨3, ![32, 32, 512]⟩
abbrev S32x32 : Shape := ⟨2, ![32, 32]⟩
abbrev S32x1x32 : Shape := ⟨3, ![32, 1, 32]⟩
abbrev S32x32x1 : Shape := ⟨3, ![32, 32, 1]⟩
abbrev S32 : Shape := ⟨1, ![32]⟩
abbrev S32x1x1 : Shape := ⟨3, ![32, 1, 1]⟩
abbrev S4096x16384 : Shape := ⟨2, ![4096, 16384]⟩

abbrev nBuf : Space → Nat
  | .hbm => 20
  | .vmem => 8
  | .smem => 0
  | _ => 0

abbrev bufTy : (tb : Table) → Fin (tcTables nBuf tb) → BufTy
  | .hbm, ⟨0, _⟩ => ⟨S4096x128x512, .f32⟩
  | .hbm, ⟨1, _⟩ => ⟨S512x48, .f32⟩
  | .hbm, ⟨2, _⟩ => ⟨S48, .f32⟩
  | .hbm, ⟨3, _⟩ => ⟨S48, .f32⟩
  | .hbm, ⟨4, _⟩ => ⟨S48, .f32⟩
  | .hbm, ⟨5, _⟩ => ⟨S48, .f32⟩
  | .hbm, ⟨6, _⟩ => ⟨S1x512x32, .f32⟩
  | .hbm, ⟨7, _⟩ => ⟨S_, .f32⟩
  | .hbm, ⟨8, _⟩ => ⟨S48, .f32⟩
  | .hbm, ⟨9, _⟩ => ⟨S48, .f32⟩
  | .hbm, ⟨10, _⟩ => ⟨S48, .f32⟩
  | .hbm, ⟨11, _⟩ => ⟨S48, .f32⟩
  | .hbm, ⟨12, _⟩ => ⟨S1x48, .f32⟩
  | .hbm, ⟨13, _⟩ => ⟨S48, .f32⟩
  | .hbm, ⟨14, _⟩ => ⟨S48, .f32⟩
  | .hbm, ⟨15, _⟩ => ⟨S48, .f32⟩
  | .hbm, ⟨16, _⟩ => ⟨S1x48, .f32⟩
  | .hbm, ⟨17, _⟩ => ⟨S1x32x512, .f32⟩
  | .hbm, ⟨18, _⟩ => ⟨S4096x512x32, .f32⟩
  | .hbm, ⟨19, _⟩ => ⟨S4096x16384, .f32⟩
  | .local _ .vmem, ⟨0, _⟩ => ⟨S32x128x512, .f32⟩
  | .local _ .vmem, ⟨1, _⟩ => ⟨S32x128x512, .f32⟩
  | .local _ .vmem, ⟨2, _⟩ => ⟨S512x48, .f32⟩
  | .local _ .vmem, ⟨3, _⟩ => ⟨S1x48, .f32⟩
  | .local _ .vmem, ⟨4, _⟩ => ⟨S1x48, .f32⟩
  | .local _ .vmem, ⟨5, _⟩ => ⟨S1x32x512, .f32⟩
  | .local _ .vmem, ⟨6, _⟩ => ⟨S32x512x32, .f32⟩
  | .local _ .vmem, ⟨7, _⟩ => ⟨S32x512x32, .f32⟩
  | _, _ => ⟨S4096x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x48 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x48 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x48 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x512x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S48 : S_.BroadcastsInDim S48 (![] : Fin 0 → Fin S48.rank)
  shapeCasts_S48_S1x48 : S48.ShapeCasts S1x48
  transposes_S1x512x32_S1x32x512_0_2_1 : S1x512x32.Transposes [0, 2, 1] S1x32x512
  inb_S32x128x512_S32x128x512_0_0_0 : ∀ a, (![0, 0, 0] : Fin 3 → Nat) a + S32x128x512.size a ≤ S32x128x512.size a
  h_S32x128x512 : 0 < S32x128x512.numel
  shapeCasts_S32x128x512_S4096x512 : S32x128x512.ShapeCasts S4096x512
  inb_S512x48_S512x48_0_0 : ∀ a, (![0, 0] : Fin 2 → Nat) a + S512x48.size a ≤ S512x48.size a
  h_S512x48 : 0 < S512x48.numel
  inb_S1x48_S1x48_0_0 : ∀ a, (![0, 0] : Fin 2 → Nat) a + S1x48.size a ≤ S1x48.size a
  h_S1x48 : 0 < S1x48.numel
  shapeCasts_S1x48_S1x48 : S1x48.ShapeCasts S1x48
  broadcasts_S1x48_S4096x48 : S1x48.Broadcasts S4096x48
  reduces_S4096x48_S4096 : S4096x48.Reduces [1] S4096
  shapeCasts_S4096_S4096x1 : S4096.ShapeCasts S4096x1
  broadcasts_S4096x1_S4096x48 : S4096x1.Broadcasts S4096x48
  slices_S4096x48_o0_0_S4096x32 : S4096x48.Slices ![0, 0] S4096x32
  shapeCasts_S4096x32_S32x128x32 : S4096x32.ShapeCasts S32x128x32
  reduces_S32x128x32_S32x32 : S32x128x32.Reduces [1] S32x32
  shapeCasts_S32x32_S32x1x32 : S32x32.ShapeCasts S32x1x32
  transposes_S32x1x32_p0_2_1_S32x32x1 : S32x1x32.Transposes [0, 2, 1] S32x32x1
  inb_S1x32x512_S1x32x512_0_0_0 : ∀ a, (![0, 0, 0] : Fin 3 → Nat) a + S1x32x512.size a ≤ S1x32x512.size a
  h_S1x32x512 : 0 < S1x32x512.numel
  shapeCasts_S1x32x512_S1x32x512 : S1x32x512.ShapeCasts S1x32x512
  broadcasts_S32x32x1_S32x32x512 : S32x32x1.Broadcasts S32x32x512
  broadcasts_S1x32x512_S32x32x512 : S1x32x512.Broadcasts S32x32x512
  reduces_S32x32x512_S32x32 : S32x32x512.Reduces [2] S32x32
  shapeCasts_S32x32_S32x32x1 : S32x32.ShapeCasts S32x32x1
  reduces_S32x32x512_S32 : S32x32x512.Reduces [1, 2] S32
  shapeCasts_S32_S32x1x1 : S32.ShapeCasts S32x1x1
  broadcasts_S32x1x1_S32x32x512 : S32x1x1.Broadcasts S32x32x512
  transposes_S32x32x512_p0_2_1_S32x512x32 : S32x32x512.Transposes [0, 2, 1] S32x512x32
  inb_S32x512x32_S32x512x32_0_0_0 : ∀ a, (![0, 0, 0] : Fin 3 → Nat) a + S32x512x32.size a ≤ S32x512x32.size a
  h_S32x512x32 : 0 < S32x512x32.numel
  shapeCasts_S4096x512x32_S4096x16384 : S4096x512x32.ShapeCasts S4096x16384
  dot_S4096x512_S512x48_S4096x48_1_0_0_1_n_n_wf : DotDims.WF S4096x512 S512x48 S4096x48 [1] [0] [0] [1] [] []
  dot_S32x128x32_S32x128x512_S32x32x512_1_1_2_2_0_0_wf : DotDims.WF S32x128x32 S32x128x512 S32x32x512 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x128x512.size a ≤ S4096x128x512.size a
  hwx0_0 : ∀ i : grid0.Coords, EltTy.bits .f32 = 32 ∨ (Rect.block (s := S4096x128x512) S32x128x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x48.size a ≤ S512x48.size a
  hwx0_1 : ∀ i : grid0.Coords, EltTy.bits .f32 = 32 ∨ (Rect.block (s := S512x48) S512x48.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x48.size a ≤ S1x48.size a
  hwx0_2 : ∀ i : grid0.Coords, EltTy.bits .f32 = 32 ∨ (Rect.block (s := S1x48) S1x48.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x48.size a ≤ S1x48.size a
  hwx0_3 : ∀ i : grid0.Coords, EltTy.bits .f32 = 32 ∨ (Rect.block (s := S1x48) S1x48.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32x512.size a ≤ S1x32x512.size a
  hwx0_4 : ∀ i : grid0.Coords, EltTy.bits .f32 = 32 ∨ (Rect.block (s := S1x32x512) S1x32x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S32x512x32.size a ≤ S4096x512x32.size a
  hwx0_5 : ∀ i : grid0.Coords, EltTy.bits .f32 = 32 ∨ (Rect.block (s := S4096x512x32) S32x512x32.size (cc0_transform_5 i) (hinb0_5 i)).WholeWords (EltTy.packing .f32)

variable [Facts₀]

def dot_S4096x512_S512x48_S4096x48_1_0_0_1_n_n : DotDims S4096x512 S512x48 S4096x48 where
  lhsContracting := [1]
  rhsContracting := [0]
  lhsNonContracting := [0]
  rhsNonContracting := [1]
  lhsBatch := []
  rhsBatch := []
  wf := dot_S4096x512_S512x48_S4096x48_1_0_0_1_n_n_wf
def dot_S32x128x32_S32x128x512_S32x32x512_1_1_2_2_0_0 : DotDims S32x128x32 S32x128x512 S32x32x512 where
  lhsContracting := [1]
  rhsContracting := [1]
  lhsNonContracting := [2]
  rhsNonContracting := [2]
  lhsBatch := [0]
  rhsBatch := [0]
  wf := dot_S32x128x32_S32x128x512_S32x32x512_1_1_2_2_0_0_wf

abbrev win0_0 : Pipeline.Window sig grid0 :=
  Pipeline.Window.ofSpec (Memref.whole main_arg0) S32x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x48.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x48.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x48.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x32x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S32x512x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x128x512 : Shape := ⟨3, ![4096, 128, 512]⟩
abbrev S512x48 : Shape := ⟨2, ![512, 48]⟩
abbrev S48 : Shape := ⟨1, ![48]⟩
abbrev S1x512x32 : Shape := ⟨3, ![1, 512, 32]⟩
abbrev S4096x128x48 : Shape := ⟨3, ![4096, 128, 48]⟩
abbrev S_ : Shape := ⟨0, ![]⟩
abbrev S1x1x48 : Shape := ⟨3, ![1, 1, 48]⟩
abbrev S4096x128 : Shape := ⟨2, ![4096, 128]⟩
abbrev S4096x128x1 : Shape := ⟨3, ![4096, 128, 1]⟩
abbrev S4096x128x32 : Shape := ⟨3, ![4096, 128, 32]⟩
abbrev S4096x32 : Shape := ⟨2, ![4096, 32]⟩
abbrev S4096x1x32 : Shape := ⟨3, ![4096, 1, 32]⟩
abbrev S4096x512x32 : Shape := ⟨3, ![4096, 512, 32]⟩
abbrev S4096x16384 : Shape := ⟨2, ![4096, 16384]⟩
abbrev S4096 : Shape := ⟨1, ![4096]⟩
abbrev S4096x1 : Shape := ⟨2, ![4096, 1]⟩

abbrev nBuf : Space → Nat
  | .hbm => 68
  | .vmem => 0
  | .smem => 0
  | _ => 0

abbrev bufTy : (tb : Table) → Fin (tcTables nBuf tb) → BufTy
  | .hbm, ⟨0, _⟩ => ⟨S4096x128x512, .f32⟩
  | .hbm, ⟨1, _⟩ => ⟨S512x48, .f32⟩
  | .hbm, ⟨2, _⟩ => ⟨S48, .f32⟩
  | .hbm, ⟨3, _⟩ => ⟨S48, .f32⟩
  | .hbm, ⟨4, _⟩ => ⟨S48, .f32⟩
  | .hbm, ⟨5, _⟩ => ⟨S48, .f32⟩
  | .hbm, ⟨6, _⟩ => ⟨S1x512x32, .f32⟩
  | .hbm, ⟨7, _⟩ => ⟨S4096x128x48, .f32⟩
  | .hbm, ⟨8, _⟩ => ⟨S_, .f32⟩
  | .hbm, ⟨9, _⟩ => ⟨S48, .f32⟩
  | .hbm, ⟨10, _⟩ => ⟨S48, .f32⟩
  | .hbm, ⟨11, _⟩ => ⟨S48, .f32⟩
  | .hbm, ⟨12, _⟩ => ⟨S1x1x48, .f32⟩
  | .hbm, ⟨13, _⟩ => ⟨S4096x128x48, .f32⟩
  | .hbm, ⟨14, _⟩ => ⟨S4096x128x48, .f32⟩
  | .hbm, ⟨15, _⟩ => ⟨S1x1x48, .f32⟩
  | .hbm, ⟨16, _⟩ => ⟨S4096x128x48, .f32⟩
  | .hbm, ⟨17, _⟩ => ⟨S4096x128x48, .f32⟩
  | .hbm, ⟨18, _⟩ => ⟨S1x1x48, .f32⟩
  | .hbm, ⟨19, _⟩ => ⟨S4096x128x48, .f32⟩
  | .hbm, ⟨20, _⟩ => ⟨S4096x128x48, .f32⟩
  | .hbm, ⟨21, _⟩ => ⟨S1x1x48, .f32⟩
  | .hbm, ⟨22, _⟩ => ⟨S4096x128x48, .f32⟩
  | .hbm, ⟨23, _⟩ => ⟨S4096x128x48, .f32⟩
  | .hbm, ⟨24, _⟩ => ⟨S_, .f32⟩
  | .hbm, ⟨25, _⟩ => ⟨S4096x128, .f32⟩
  | .hbm, ⟨26, _⟩ => ⟨S_, .f32⟩
  | .hbm, ⟨27, _⟩ => ⟨S4096x128, .f32⟩
  | .hbm, ⟨28, _⟩ => ⟨S4096x128, .f32⟩
  | .hbm, ⟨29, _⟩ => ⟨S4096x128x1, .f32⟩
  | .hbm, ⟨30, _⟩ => ⟨S4096x128x48, .f32⟩
  | .hbm, ⟨31, _⟩ => ⟨S4096x128x48, .f32⟩
  | .hbm, ⟨32, _⟩ => ⟨S4096x128x48, .f32⟩
  | .hbm, ⟨33, _⟩ => ⟨S_, .f32⟩
  | .hbm, ⟨34, _⟩ => ⟨S4096x128, .f32⟩
  | .hbm, ⟨35, _⟩ => ⟨S4096x128x1, .f32⟩
  | .hbm, ⟨36, _⟩ => ⟨S4096x128x48, .f32⟩
  | .hbm, ⟨37, _⟩ => ⟨S4096x128x48, .f32⟩
  | .hbm, ⟨38, _⟩ => ⟨S4096x128x32, .f32⟩
  | .hbm, ⟨39, _⟩ => ⟨S_, .f32⟩
  | .hbm, ⟨40, _⟩ => ⟨S4096x32, .f32⟩
  | .hbm, ⟨41, _⟩ => ⟨S4096x1x32, .f32⟩
  | .hbm, ⟨42, _⟩ => ⟨S4096x512x32, .f32⟩
  | .hbm, ⟨43, _⟩ => ⟨S4096x512x32, .f32⟩
  | .hbm, ⟨44, _⟩ => ⟨S4096x512x32, .f32⟩
  | .hbm, ⟨45, _⟩ => ⟨S4096x512x32, .f32⟩
  | .hbm, ⟨46, _⟩ => ⟨S4096x512x32, .f32⟩
  | .hbm, ⟨47, _⟩ => ⟨S4096x512x32, .f32⟩
  | .hbm, ⟨48, _⟩ => ⟨S_, .f32⟩
  | .hbm, ⟨49, _⟩ => ⟨S4096x32, .f32⟩
  | .hbm, ⟨50, _⟩ => ⟨S4096x1x32, .f32⟩
  | .hbm, ⟨51, _⟩ => ⟨S4096x1x32, .f32⟩
  | .hbm, ⟨52, _⟩ => ⟨S_, .f32⟩
  | .hbm, ⟨53, _⟩ => ⟨S4096x1x32, .f32⟩
  | .hbm, ⟨54, _⟩ => ⟨S4096x1x32, .f32⟩
  | .hbm, ⟨55, _⟩ => ⟨S4096x512x32, .f32⟩
  | .hbm, ⟨56, _⟩ => ⟨S4096x512x32, .f32⟩
  | .hbm, ⟨57, _⟩ => ⟨S4096x16384, .f32⟩
  | .hbm, ⟨58, _⟩ => ⟨S4096x16384, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x16384, .f32⟩
  | .hbm, ⟨67, _⟩ => ⟨S4096x16384, .f32⟩
  | _, _ => ⟨S4096x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_call0_v0 : Ref sig .tc := ⟨.hbm, 47, rfl⟩
abbrev main_call0_cst : Ref sig .tc := ⟨.hbm, 48, rfl⟩
abbrev main_call0_v1 : Ref sig .tc := ⟨.hbm, 49, rfl⟩
abbrev main_call0_v2 : Ref sig .tc := ⟨.hbm, 50, rfl⟩
abbrev main_v35 : Ref sig .tc := ⟨.hbm, 51, rfl⟩
abbrev main_cst_4 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call1_v0 : Ref sig .tc := ⟨.hbm, 58, rfl⟩
abbrev main_call1_cst : Ref sig .tc := ⟨.hbm, 59, rfl⟩
abbrev main_call1_v1 : Ref sig .tc := ⟨.hbm, 60, rfl⟩
abbrev main_call1_v2 : Ref sig .tc := ⟨.hbm, 61, rfl⟩
abbrev main_v41 : Ref sig .tc := ⟨.hbm, 62, rfl⟩
abbrev main_cst_5 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]

class Facts₀ : Prop where
  bcast_S_S48 : S_.BroadcastsInDim S48 (![] : Fin 0 → Fin S48.rank)
  bcast_S48_S1x1x48_2 : S48.BroadcastsInDim S1x1x48 (![2] : Fin 1 → Fin S1x1x48.rank)
  bcast_S1x1x48_S4096x128x48_0_1_2 : S1x1x48.BroadcastsInDim S4096x128x48 (![0, 1, 2] : Fin 3 → Fin S4096x128x48.rank)
  reducesTo_S4096x128x48_S4096x128_d2 : S4096x128x48.ReducesTo [2] S4096x128
  h_S_ : 0 < S_.numel
  bcast_S_S4096x128 : S_.BroadcastsInDim S4096x128 (![] : Fin 0 → Fin S4096x128.rank)
  bcast_S4096x128_S4096x128x1_0_1 : S4096x128.BroadcastsInDim S4096x128x1 (![0, 1] : Fin 2 → Fin S4096x128x1.rank)
  bcast_S4096x128x1_S4096x128x48_0_1_2 : S4096x128x1.BroadcastsInDim S4096x128x48 (![0, 1, 2] : Fin 3 → Fin S4096x128x48.rank)
  slices_S4096x128x48_S4096x128x32_0_0_0 : S4096x128x48.Slices ![0, 0, 0] S4096x128x32
  reducesTo_S4096x128x32_S4096x32_d1 : S4096x128x32.ReducesTo [1] S4096x32
  bcast_S4096x32_S4096x1x32_0_2 : S4096x32.BroadcastsInDim S4096x1x32 (![0, 2] : Fin 2 → Fin S4096x1x32.rank)
  bcast_S4096x1x32_S4096x512x32_0_1_2 : S4096x1x32.BroadcastsInDim S4096x512x32 (![0, 1, 2] : Fin 3 → Fin S4096x512x32.rank)
  bcast_S1x512x32_S4096x512x32_0_1_2 : S1x512x32.BroadcastsInDim S4096x512x32 (![0, 1, 2] : Fin 3 → Fin S4096x512x32.rank)
  reducesTo_S4096x512x32_S4096x32_d1 : S4096x512x32.ReducesTo [1] S4096x32
  bcast_S_S4096x1x32 : S_.BroadcastsInDim S4096x1x32 (![] : Fin 0 → Fin S4096x1x32.rank)
  shapeCasts_S4096x512x32_S4096x16384 : S4096x512x32.ShapeCasts S4096x16384
  reducesTo_S4096x16384_S4096_d1 : S4096x16384.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x16384_0_1 : S4096x1.BroadcastsInDim S4096x16384 (![0, 1] : Fin 2 → Fin S4096x16384.rank)
  dot_S4096x128x512_S512x48_S4096x128x48_2_0_01_1_n_n_wf : DotDims.WF S4096x128x512 S512x48 S4096x128x48 [2] [0] [0, 1] [1] [] []
  dot_S4096x128x512_S4096x128x32_S4096x512x32_1_1_2_2_0_0_wf : DotDims.WF S4096x128x512 S4096x128x32 S4096x512x32 [1] [1] [2] [2] [0] [0]

variable [Facts₀]

def dot_S4096x128x512_S512x48_S4096x128x48_2_0_01_1_n_n : DotDims S4096x128x512 S512x48 S4096x128x48 where
  lhsContracting := [2]
  rhsContracting := [0]
  lhsNonContracting := [0, 1]
  rhsNonContracting := [1]
  lhsBatch := []
  rhsBatch := []
  wf := dot_S4096x128x512_S512x48_S4096x128x48_2_0_01_1_n_n_wf
def dot_S4096x128x512_S4096x128x32_S4096x512x32_1_1_2_2_0_0 : DotDims S4096x128x512 S4096x128x32 S4096x512x32 where
  lhsContracting := [1]
  rhsContracting := [1]
  lhsNonContracting := [2]
  rhsNonContracting := [2]
  lhsBatch := [0]
  rhsBatch := [0]
  wf := dot_S4096x128x512_S4096x128x32_S4096x512x32_1_1_2_2_0_0_wf

class Facts : Prop extends Facts₀ where

variable [Facts]
-- ==== Proof.Spec.lean ====
/-
  Soft-assignment pooling of one batch row, written once on the extended reals.

  A row holds 128 descriptors `X n` of dimension 512. Each descriptor is scored against 48 clusters
  (`score n k`); the scores of a descriptor are turned into weights by the shifted exponential quotient
  `soft` (the row maximum subtracted, then `e / Σ e`); only the first 32 clusters are kept. For a kept cluster `k`
  the residual `resid k d = Σ_n soft n k · X n d − (Σ_n soft n k) · c2 d k` is normalized over `d` (`intra`), and the
  whole `32 × 512` table is normalized once more (`pooled`). Both norms are guarded from below by the same word.

  The two programs differ only in how a score is assembled from the raw product `Σ_d X n d · C d k`:
  `scoreR` subtracts the running mean, multiplies by the inverse deviation and the weight, and adds the bias;
  `scoreK` multiplies by a scale and adds a shift, both folded from the same four vectors beforehand
  (`scaleOf`, `shiftOf`). Everything downstream is literally one function of the scores.
-/
import Idealize.ShloMosaic.PureOps.Ideal
import Idealize.ShloMosaic.Lib.ValueIdx

noncomputable section

namespace Cert.Vlad

open Idealize.ShloMosaic

/-- The lower guard of both norms. -/
abbrev guard : EReal := Ideal.ofBits .f32 0x2B8CBCCC#32
/-- The value a row maximum starts from. -/
abbrev low : EReal := Ideal.ofBits .f32 0xFF800000#32
/-- The offset added to a variance before the inverse square root. -/
abbrev eps : EReal := Ideal.ofBits .f32 0x3727C5AC#32

/-- A kept cluster as one of the 48 scored. -/
abbrev kept (k : Fin 32) : Fin 48 := ⟨k.val, by omega⟩

/-- The maximum of one descriptor's 48 scores. -/
def rowMax (l : Fin 48 → EReal) : EReal := (Finset.univ : Finset (Fin 48)).fold max low l

/-- The weight of cluster `k` for descriptor `n`: the exponential of the score below the row maximum, over the sum
    of these exponentials. -/
def soft (L : Fin 128 → Fin 48 → EReal) (n : Fin 128) (k : Fin 48) : EReal :=
  Ideal.div (Ideal.exp (L n k - rowMax (L n))) (∑ j : Fin 48, Ideal.exp (L n j - rowMax (L n)))

/-- The weighted sum of descriptors less the weighted centre, for kept cluster `k` and coordinate `d`. -/
def resid (L : Fin 128 → Fin 48 → EReal) (X : Fin 128 → Fin 512 → EReal) (c2 : Fin 512 → Fin 32 → EReal)
    (k : Fin 32) (d : Fin 512) : EReal :=
  (∑ n : Fin 128, soft L n (kept k) * X n d) - (∑ n : Fin 128, soft L n (kept k)) * c2 d k

/-- The guarded length of cluster `k`'s residual. -/
def norm1 (L : Fin 128 → Fin 48 → EReal) (X : Fin 128 → Fin 512 → EReal) (c2 : Fin 512 → Fin 32 → EReal)
    (k : Fin 32) : EReal :=
  max (Ideal.sqrt (∑ d : Fin 512, resid L X c2 k d * resid L X c2 k d)) guard

/-- The residual over its guarded length. -/
def intra (L : Fin 128 → Fin 48 → EReal) (X : Fin 128 → Fin 512 → EReal) (c2 : Fin 512 → Fin 32 → EReal)
    (k : Fin 32) (d : Fin 512) : EReal :=
  Ideal.div (resid L X c2 k d) (norm1 L X c2 k)

/-- The guarded length of the whole normalized table. -/
def norm2 (L : Fin 128 → Fin 48 → EReal) (X : Fin 128 → Fin 512 → EReal) (c2 : Fin 512 → Fin 32 → EReal) : EReal :=
  max (Ideal.sqrt (∑ k : Fin 32, ∑ d : Fin 512, intra L X c2 k d * intra L X c2 k d)) guard

/-- The row's result at coordinate `d` and kept cluster `k`. -/
def pooled (L : Fin 128 → Fin 48 → EReal) (X : Fin 128 → Fin 512 → EReal) (c2 : Fin 512 → Fin 32 → EReal)
    (d : Fin 512) (k : Fin 32) : EReal :=
  Ideal.div (intra L X c2 k d) (norm2 L X c2)

/-- A score assembled as product times scale plus shift. -/
def scoreK (X : Fin 128 → Fin 512 → EReal) (C : Fin 512 → Fin 48 → EReal) (sc sh : Fin 48 → EReal)
    (n : Fin 128) (k : Fin 48) : EReal :=
  (∑ d : Fin 512, X n d * C d k) * sc k + sh k

/-- A score assembled as centred product times inverse deviation times weight plus bias. -/
def scoreR (X : Fin 128 → Fin 512 → EReal) (C : Fin 512 → Fin 48 → EReal) (w b rm rv : Fin 48 → EReal)
    (n : Fin 128) (k : Fin 48) : EReal :=
  ((∑ d : Fin 512, X n d * C d k) - rm k) * Ideal.rsqrt (rv k + eps) * w k + b k

/-- The folded scale: weight times inverse deviation. -/
def scaleOf (w rv : Fin 48 → EReal) (k : Fin 48) : EReal := w k * Ideal.rsqrt (rv k + eps)

/-- The folded shift: bias less mean times weight times inverse deviation. -/
def shiftOf (w b rm rv : Fin 48 → EReal) (k : Fin 48) : EReal := b k - rm k * w k * Ideal.rsqrt (rv k + eps)

end Cert.Vlad

end
-- ==== Proof.KernelScores.lean ====
/-
  The kernel body up to the residual: for row `b` of the staged block, kept cluster `k` and coordinate `d`, the
  value the body subtracts into is `resid` of the row's scores (product with the cluster matrix, times the scale row,
  plus the shift row), the row's descriptors, and the centres as staged (cluster-major).
-/
import proofs.«413358_j25056839205135_4_alg».proof.Proof.Gen.KernelIdeal.Skeleton
import proofs.«413358_j25056839205135_4_alg».proof.Proof.Spec
import Idealize.ShloMosaic.Lib.Pipeline.Value
import Idealize.ShloMosaic.Lib.ValueLayout
import Idealize.ShloMosaic.PureOps.Ideal.Laws

noncomputable section

namespace Cert.Vlad.Body

open Idealize.ShloMosaic Idealize.ShloMosaic.ValueIdx Cert.KernelIdeal Cert.KernelIdeal.Gen Cert.Vlad

/-- Row `b` of a staged block of descriptors. -/
abbrev xrow (x0 : Vec Ideal S32x128x512 .f32) (b : Fin 32) : Fin 128 → Fin 512 → EReal := fun n d => x0 (ix3 b n d)
/-- The cluster matrix by coordinates. -/
abbrev cmat (x1 : Vec Ideal S512x48 .f32) : Fin 512 → Fin 48 → EReal := fun d k => x1 (ix2 d k)
/-- A one-row array as a vector. -/
abbrev rowv (x : Vec Ideal S1x48 .f32) : Fin 48 → EReal := fun k => x (ix2 0 k)
/-- The centres, staged cluster-major, read coordinate-major. -/
abbrev ckd (x4 : Vec Ideal S1x32x512 .f32) : Fin 512 → Fin 32 → EReal := fun d k => x4 (ix3 0 k d)

namespace Scores

/-! ## The body's value in stages -/

/-- Scores: product with the cluster matrix, times the scale row, plus the shift row. -/
def stScores (x0 : FVec Ideal S32x128x512 .f32) (x1 : FVec Ideal S512x48 .f32) (x2 x3 : FVec Ideal S1x48 .f32) :
    FVec Ideal S4096x48 .f32 :=
  addf (mulf (matmul dot_S4096x512_S512x48_S4096x48_1_0_0_1_n_n none
        (shapeCast S4096x512 x0 shapeCasts_S32x128x512_S4096x512) x1 (constant (F := Ideal) S4096x48 .f32 0x00000000#32))
      (broadcastTo S4096x48 (shapeCast S1x48 x2 shapeCasts_S1x48_S1x48) broadcasts_S1x48_S4096x48))
    (broadcastTo S4096x48 (shapeCast S1x48 x3 shapeCasts_S1x48_S1x48) broadcasts_S1x48_S4096x48)

/-- The maximum of each row of scores, from the starting value. -/
def stMax (v11 : FVec Ideal S4096x48 .f32) : FVec Ideal S4096 .f32 :=
  multiReduction (F := Ideal) .maximumf [1] S4096 v11 0xFF800000#32 reduces_S4096x48_S4096 (.inl rfl) rfl

/-- The exponential of each score below its row's maximum. -/
def stExp (v11 : FVec Ideal S4096x48 .f32) : FVec Ideal S4096x48 .f32 :=
  exp (subf v11 (broadcastTo S4096x48 (shapeCast S4096x1 (stMax v11) shapeCasts_S4096_S4096x1) broadcasts_S4096x1_S4096x48))

/-- The sum of each row. -/
def stSum (v16 : FVec Ideal S4096x48 .f32) : FVec Ideal S4096 .f32 :=
  multiReduction (F := Ideal) .add [1] S4096 v16 0x00000000#32 reduces_S4096x48_S4096 (.inl rfl) rfl

/-- Each entry over its row's sum. -/
def stW (v16 : FVec Ideal S4096x48 .f32) : FVec Ideal S4096x48 .f32 :=
  divf v16 (broadcastTo S4096x48 (shapeCast S4096x1 (stSum v16) shapeCasts_S4096_S4096x1) broadcasts_S4096x1_S4096x48)

/-- The first 32 columns, regrouped as `[32, 128, 32]`. -/
def stW3 (v20 : FVec Ideal S4096x48 .f32) : FVec Ideal S32x128x32 .f32 :=
  shapeCast S32x128x32 (extractStridedSlice S4096x32 ![0, 0] v20 slices_S4096x48_o0_0_S4096x32) shapeCasts_S4096x32_S32x128x32

/-- The weighted sum of descriptors (summed over the descriptor axis) less the sum of the weights times the centres. -/
def stTail (v22 : FVec Ideal S32x128x32 .f32) (x0 : FVec Ideal S32x128x512 .f32) (x4 : FVec Ideal S1x32x512 .f32) :
    FVec Ideal S32x32x512 .f32 :=
  subf (matmul dot_S32x128x32_S32x128x512_S32x32x512_1_1_2_2_0_0 none v22 x0 (constant (F := Ideal) S32x32x512 .f32 0x00000000#32))
    (mulf
      (broadcastTo S32x32x512
        (transpose S32x32x1 [0, 2, 1]
          (shapeCast S32x1x32
            (multiReduction (F := Ideal) .add [1] S32x32 v22 0x00000000#32 reduces_S32x128x32_S32x32 (.inl rfl) rfl)
            shapeCasts_S32x32_S32x1x32)
          transposes_S32x1x32_p0_2_1_S32x32x1)
        broadcasts_S32x32x1_S32x32x512)
      (broadcastTo S32x32x512 (shapeCast S1x32x512 x4 shapeCasts_S1x32x512_S1x32x512) broadcasts_S1x32x512_S32x32x512))

/-- The body's value is the composition of these stages. -/
theorem pay2_stages (x0 : Vec Ideal S32x128x512 .f32) (x1 : Vec Ideal S512x48 .f32) (x2 x3 : Vec Ideal S1x48 .f32)
    (x4 : Vec Ideal S1x32x512 .f32) :
    k0_pay2 (F := Ideal) x0 x1 x2 x3 x4 = stTail (stW3 (stW (stExp (stScores x0 x1 x2 x3)))) x0 x4 := rfl

/-! ## Rows of the flattened block -/

/-- Row `128 * b + n` of the flattened block: descriptor `n` of row `b`. -/
def row (b : Fin 32) (n : Fin 128) : Fin 4096 := ⟨b.val * 128 + n.val, by omega⟩

/-- The block cast to rows reads, at row `128 * b + n` and coordinate `d`, the block at `(b, n, d)`. -/
theorem castRows_apply (x0 : FVec Ideal S32x128x512 .f32) (h : S32x128x512.ShapeCasts S4096x512)
    (b : Fin 32) (n : Fin 128) (d : Fin 512) :
    shapeCast S4096x512 x0 h (ix2 (row b n) d) = x0 (ix3 b n d) :=
  shapeCast_apply x0 h _ _ (by
    rw [Shape.rowMajor_val_three, Shape.rowMajor_val_two]
    show (b.val * 128 + n.val) * 512 + d.val = (b.val * 128 + n.val) * 512 + d.val
    rfl)

/-! ## The product with the cluster matrix: the sum over the coordinate `d` -/

theorem lhs1_0 (i : S4096x48.Idx) (q : dot_S4096x512_S512x48_S4096x48_1_0_0_1_n_n.contr.Idx) :
    (dot_S4096x512_S512x48_S4096x48_1_0_0_1_n_n.lhsIdx i q 0).val = (i 0).val := by
  unfold DotDims.lhsIdx
  rw [dif_neg (show ¬(0 : Fin S4096x512.rank) ∈ dot_S4096x512_S512x48_S4096x48_1_0_0_1_n_n.lhsBatch by decide), dif_pos (show (0 : Fin S4096x512.rank) ∈ dot_S4096x512_S512x48_S4096x48_1_0_0_1_n_n.lhsNonContracting by decide)]
  rfl
theorem lhs1_1 (i : S4096x48.Idx) (q : dot_S4096x512_S512x48_S4096x48_1_0_0_1_n_n.contr.Idx) :
    (dot_S4096x512_S512x48_S4096x48_1_0_0_1_n_n.lhsIdx i q 1).val = (q ⟨0, by decide⟩).val :=
  dot_S4096x512_S512x48_S4096x48_1_0_0_1_n_n.lhsIdx_val_of_single rfl i q
theorem rhs1_0 (i : S4096x48.Idx) (q : dot_S4096x512_S512x48_S4096x48_1_0_0_1_n_n.contr.Idx) :
    (dot_S4096x512_S512x48_S4096x48_1_0_0_1_n_n.rhsIdx i q 0).val = (q ⟨0, by decide⟩).val :=
  dot_S4096x512_S512x48_S4096x48_1_0_0_1_n_n.rhsIdx_val_of_single rfl i q
theorem rhs1_1 (i : S4096x48.Idx) (q : dot_S4096x512_S512x48_S4096x48_1_0_0_1_n_n.contr.Idx) :
    (dot_S4096x512_S512x48_S4096x48_1_0_0_1_n_n.rhsIdx i q 1).val = (i 1).val := by
  unfold DotDims.rhsIdx
  rw [dif_neg (show ¬(1 : Fin S512x48.rank) ∈ dot_S4096x512_S512x48_S4096x48_1_0_0_1_n_n.rhsBatch by decide), dif_pos (show (1 : Fin S512x48.rank) ∈ dot_S4096x512_S512x48_S4096x48_1_0_0_1_n_n.rhsNonContracting by decide)]
  rfl

/-- The product into the zero accumulator at `(r, k)`: the sum over `d` of left at `(r, d)` times right at `(d, k)`. -/
theorem matmul1_apply (a : FVec Ideal S4096x512 .f32) (c : FVec Ideal S512x48 .f32) (r : Fin 4096) (k : Fin 48) :
    matmul dot_S4096x512_S512x48_S4096x48_1_0_0_1_n_n none a c (constant (F := Ideal) S4096x48 .f32 0x00000000#32) (ix2 r k)
      = ∑ d : Fin 512, a (ix2 r d) * c (ix2 d k) := by
  simp only [matmul]
  rw [Ideal.matmul_constant_zero_apply, ← Equiv.sum_comp (contrEquiv1 dot_S4096x512_S512x48_S4096x48_1_0_0_1_n_n 512 rfl rfl).symm]
  refine Finset.sum_congr rfl fun d _ => ?_
  have hk := contrEquiv1_symm_val dot_S4096x512_S512x48_S4096x48_1_0_0_1_n_n 512 rfl rfl d
  have el : dot_S4096x512_S512x48_S4096x48_1_0_0_1_n_n.lhsIdx (ix2 r k) ((contrEquiv1 dot_S4096x512_S512x48_S4096x48_1_0_0_1_n_n 512 rfl rfl).symm d) = ix2 r d := funext fun ax => Fin.ext (by
    match ax with
    | ⟨0, _⟩ => exact lhs1_0 _ _
    | ⟨1, _⟩ => exact (lhs1_1 _ _).trans hk)
  have er : dot_S4096x512_S512x48_S4096x48_1_0_0_1_n_n.rhsIdx (ix2 r k) ((contrEquiv1 dot_S4096x512_S512x48_S4096x48_1_0_0_1_n_n 512 rfl rfl).symm d) = ix2 d k := funext fun ax => Fin.ext (by
    match ax with
    | ⟨0, _⟩ => exact (rhs1_0 _ _).trans hk
    | ⟨1, _⟩ => exact rhs1_1 _ _)
  rw [el, er]

/-! ## One row spread over all rows; one column spread over all columns -/

/-- A one-row array, cast to itself and spread over the rows, reads its entry `k` at `(r, k)`. -/
theorem rowSpread_apply (x : FVec Ideal S1x48 .f32) (h1 : S1x48.ShapeCasts S1x48) (h2 : S1x48.Broadcasts S4096x48)
    (r : Fin 4096) (k : Fin 48) :
    broadcastTo S4096x48 (shapeCast S1x48 x h1) h2 (ix2 r k) = x (ix2 0 k) := by
  rw [shapeCast_self]
  exact broadcastTo_1b_ab_apply x h2 r k

/-- A vector of row values, cast to a column and spread over the columns, reads its entry `r` at `(r, k)`. -/
theorem colSpread_apply (w : FVec Ideal S4096 .f32) (h1 : S4096.ShapeCasts S4096x1) (h2 : S4096x1.Broadcasts S4096x48)
    (r : Fin 4096) (k : Fin 48) :
    broadcastTo S4096x48 (shapeCast S4096x1 w h1) h2 (ix2 r k) = w (ix1 r) := by
  refine (broadcastTo_apply _ h2 (ix2 r k) (ix2 r (0 : Fin 1)) fun ax => ?_).trans ?_
  · match ax with
    | ⟨0, _⟩ => rfl
    | ⟨1, _⟩ => rfl
  · exact shapeCast_apply w h1 _ _ (by
      rw [Shape.rowMajor_val_one, Shape.rowMajor_val_two]
      show r.val = r.val * 1 + 0
      omega)

/-- The index a reduction over the columns inserts column `k` into row `r` at. -/
theorem liftCol (h : S4096x48.Reduces [1] S4096) (r : Fin 4096) (k : Fin 48) : h.lift (ix1 r) k = ix2 r k :=
  funext fun ax => Fin.ext (by
    match ax with
    | ⟨0, _⟩ => rfl
    | ⟨1, _⟩ => rfl)

/-! ## The scores -/

/-- The scores at row `128 * b + n`, cluster `k`. -/
theorem stScores_apply (x0 : FVec Ideal S32x128x512 .f32) (x1 : FVec Ideal S512x48 .f32) (x2 x3 : FVec Ideal S1x48 .f32)
    (b : Fin 32) (n : Fin 128) (k : Fin 48) :
    stScores x0 x1 x2 x3 (ix2 (row b n) k) = scoreK (xrow x0 b) (cmat x1) (rowv x2) (rowv x3) n k := by
  unfold stScores scoreK
  rw [addf_apply, mulf_apply, matmul1_apply, rowSpread_apply, rowSpread_apply]
  refine congrArg (fun s => s * x2 (ix2 0 k) + x3 (ix2 0 k)) ?_
  exact Finset.sum_congr rfl fun d _ => congrArg (· * x1 (ix2 d k)) (castRows_apply x0 _ b n d)

/-! ## The row maximum, the exponentials, their row sum, the weights -/

/-- The maximum over the columns at row `r`: the fold of `max` from the starting value over that row's entries. -/
theorem stMax_apply (v : FVec Ideal S4096x48 .f32) (r : Fin 4096) :
    stMax v (ix1 r) = rowMax fun k => v (ix2 r k) := by
  unfold stMax rowMax
  refine (Ideal.multiReduction_maximumf_single v _ reduces_S4096x48_S4096 _ _ (ix1 r)).trans ?_
  have e : (v ∘ reduces_S4096x48_S4096.lift (ix1 r)) = fun k : Fin 48 => v (ix2 r k) :=
    funext fun k => congrArg v (liftCol _ r k)
  rw [e]
  rfl

/-- The exponential of an entry below its row's maximum. -/
theorem stExp_apply (v : FVec Ideal S4096x48 .f32) (r : Fin 4096) (k : Fin 48) :
    stExp v (ix2 r k) = Ideal.exp (v (ix2 r k) - rowMax fun j => v (ix2 r j)) := by
  unfold stExp
  show Ideal.exp (v (ix2 r k) - broadcastTo S4096x48 (shapeCast S4096x1 (stMax v) _) _ (ix2 r k)) = _
  rw [colSpread_apply, stMax_apply]

/-- The sum over the columns at row `r`. -/
theorem stSum_apply (w : FVec Ideal S4096x48 .f32) (r : Fin 4096) :
    stSum w (ix1 r) = ∑ k : Fin 48, w (ix2 r k) := by
  unfold stSum
  refine (Ideal.multiReduction_add_single w _ reduces_S4096x48_S4096 _ _ (ix1 r)).trans ?_
  exact Finset.sum_congr rfl fun k _ => congrArg w (liftCol _ r k)

/-- An entry over its row's sum. -/
theorem stW_apply (w : FVec Ideal S4096x48 .f32) (r : Fin 4096) (k : Fin 48) :
    stW w (ix2 r k) = Ideal.div (w (ix2 r k)) (∑ j : Fin 48, w (ix2 r j)) := by
  unfold stW
  rw [divf_apply, colSpread_apply, stSum_apply]

/-! ## The kept columns, by row of the block -/

/-- The first 32 columns, regrouped by row of the block: at `(b, n, k)` the entry at row `128 * b + n`, column `k`. -/
theorem stW3_apply (v : FVec Ideal S4096x48 .f32) (b : Fin 32) (n : Fin 128) (k : Fin 32) :
    stW3 v (ix3 b n k) = v (ix2 (row b n) (kept k)) := by
  unfold stW3
  refine (shapeCast_apply _ shapeCasts_S4096x32_S32x128x32 (ix3 b n k) (ix2 (row b n) k) (by
    rw [Shape.rowMajor_val_three, Shape.rowMajor_val_two]
    show (b.val * 128 + n.val) * 32 + k.val = (b.val * 128 + n.val) * 32 + k.val
    rfl)).trans ?_
  exact slice2_axis1_apply 0 v slices_S4096x48_o0_0_S4096x32 (row b n) k (kept k) (Nat.zero_add _).symm

/-- The weight of kept cluster `k` for descriptor `n` of row `b`. -/
theorem weights_apply (x0 : FVec Ideal S32x128x512 .f32) (x1 : FVec Ideal S512x48 .f32) (x2 x3 : FVec Ideal S1x48 .f32)
    (b : Fin 32) (n : Fin 128) (k : Fin 32) :
    stW3 (stW (stExp (stScores x0 x1 x2 x3))) (ix3 b n k)
      = soft (scoreK (xrow x0 b) (cmat x1) (rowv x2) (rowv x3)) n (kept k) := by
  rw [stW3_apply, stW_apply]
  unfold soft
  have hrow : (fun j => stScores x0 x1 x2 x3 (ix2 (row b n) j))
      = scoreK (xrow x0 b) (cmat x1) (rowv x2) (rowv x3) n := funext fun j => stScores_apply x0 x1 x2 x3 b n j
  have hexp : ∀ j : Fin 48, stExp (stScores x0 x1 x2 x3) (ix2 (row b n) j)
      = Ideal.exp (scoreK (xrow x0 b) (cmat x1) (rowv x2) (rowv x3) n j
          - rowMax (scoreK (xrow x0 b) (cmat x1) (rowv x2) (rowv x3) n)) := fun j => by
    rw [stExp_apply, hrow, stScores_apply]
  rw [hexp (kept k)]
  exact congrArg (Ideal.div _) (Finset.sum_congr rfl fun j _ => hexp j)

/-! ## The weighted sum of descriptors: the batched product, summed over the descriptor `n` -/

theorem lhs2_0 (i : S32x32x512.Idx) (q : dot_S32x128x32_S32x128x512_S32x32x512_1_1_2_2_0_0.contr.Idx) :
    (dot_S32x128x32_S32x128x512_S32x32x512_1_1_2_2_0_0.lhsIdx i q 0).val = (i 0).val := by
  unfold DotDims.lhsIdx
  rw [dif_pos (show (0 : Fin S32x128x32.rank) ∈ dot_S32x128x32_S32x128x512_S32x32x512_1_1_2_2_0_0.lhsBatch by decide)]
  rfl
theorem lhs2_1 (i : S32x32x512.Idx) (q : dot_S32x128x32_S32x128x512_S32x32x512_1_1_2_2_0_0.contr.Idx) :
    (dot_S32x128x32_S32x128x512_S32x32x512_1_1_2_2_0_0.lhsIdx i q 1).val = (q ⟨0, by decide⟩).val :=
  dot_S32x128x32_S32x128x512_S32x32x512_1_1_2_2_0_0.lhsIdx_val_of_single rfl i q
theorem lhs2_2 (i : S32x32x512.Idx) (q : dot_S32x128x32_S32x128x512_S32x32x512_1_1_2_2_0_0.contr.Idx) :
    (dot_S32x128x32_S32x128x512_S32x32x512_1_1_2_2_0_0.lhsIdx i q 2).val = (i 1).val := by
  unfold DotDims.lhsIdx
  rw [dif_neg (show ¬(2 : Fin S32x128x32.rank) ∈ dot_S32x128x32_S32x128x512_S32x32x512_1_1_2_2_0_0.lhsBatch by decide), dif_pos (show (2 : Fin S32x128x32.rank) ∈ dot_S32x128x32_S32x128x512_S32x32x512_1_1_2_2_0_0.lhsNonContracting by decide)]
  rfl
theorem rhs2_0 (i : S32x32x512.Idx) (q : dot_S32x128x32_S32x128x512_S32x32x512_1_1_2_2_0_0.contr.Idx) :
    (dot_S32x128x32_S32x128x512_S32x32x512_1_1_2_2_0_0.rhsIdx i q 0).val = (i 0).val := by
  unfold DotDims.rhsIdx
  rw [dif_pos (show (0 : Fin S32x128x512.rank) ∈ dot_S32x128x32_S32x128x512_S32x32x512_1_1_2_2_0_0.rhsBatch by decide)]
  rfl
theorem rhs2_1 (i : S32x32x512.Idx) (q : dot_S32x128x32_S32x128x512_S32x32x512_1_1_2_2_0_0.contr.Idx) :
    (dot_S32x128x32_S32x128x512_S32x32x512_1_1_2_2_0_0.rhsIdx i q 1).val = (q ⟨0, by decide⟩).val :=
  dot_S32x128x32_S32x128x512_S32x32x512_1_1_2_2_0_0.rhsIdx_val_of_single rfl i q
theorem rhs2_2 (i : S32x32x512.Idx) (q : dot_S32x128x32_S32x128x512_S32x32x512_1_1_2_2_0_0.contr.Idx) :
    (dot_S32x128x32_S32x128x512_S32x32x512_1_1_2_2_0_0.rhsIdx i q 2).val = (i 2).val := by
  unfold DotDims.rhsIdx
  rw [dif_neg (show ¬(2 : Fin S32x128x512.rank) ∈ dot_S32x128x32_S32x128x512_S32x32x512_1_1_2_2_0_0.rhsBatch by decide), dif_pos (show (2 : Fin S32x128x512.rank) ∈ dot_S32x128x32_S32x128x512_S32x32x512_1_1_2_2_0_0.rhsNonContracting by decide)]
  rfl

/-- The batched product into the zero accumulator at `(b, k, d)`: the sum over `n` of left at `(b, n, k)` times right
    at `(b, n, d)`. -/
theorem matmul2_apply (w : FVec Ideal S32x128x32 .f32) (x0 : FVec Ideal S32x128x512 .f32)
    (b : Fin 32) (k : Fin 32) (d : Fin 512) :
    matmul dot_S32x128x32_S32x128x512_S32x32x512_1_1_2_2_0_0 none w x0 (constant (F := Ideal) S32x32x512 .f32 0x00000000#32) (ix3 b k d)
      = ∑ n : Fin 128, w (ix3 b n k) * x0 (ix3 b n d) := by
  simp only [matmul]
  rw [Ideal.matmul_constant_zero_apply, ← Equiv.sum_comp (contrEquiv1 dot_S32x128x32_S32x128x512_S32x32x512_1_1_2_2_0_0 128 rfl rfl).symm]
  refine Finset.sum_congr rfl fun n _ => ?_
  have hk := contrEquiv1_symm_val dot_S32x128x32_S32x128x512_S32x32x512_1_1_2_2_0_0 128 rfl rfl n
  have el : dot_S32x128x32_S32x128x512_S32x32x512_1_1_2_2_0_0.lhsIdx (ix3 b k d) ((contrEquiv1 dot_S32x128x32_S32x128x512_S32x32x512_1_1_2_2_0_0 128 rfl rfl).symm n) = ix3 b n k := funext fun ax => Fin.ext (by
    match ax with
    | ⟨0, _⟩ => exact lhs2_0 _ _
    | ⟨1, _⟩ => exact (lhs2_1 _ _).trans hk
    | ⟨2, _⟩ => exact lhs2_2 _ _)
  have er : dot_S32x128x32_S32x128x512_S32x32x512_1_1_2_2_0_0.rhsIdx (ix3 b k d) ((contrEquiv1 dot_S32x128x32_S32x128x512_S32x32x512_1_1_2_2_0_0 128 rfl rfl).symm n) = ix3 b n d := funext fun ax => Fin.ext (by
    match ax with
    | ⟨0, _⟩ => exact rhs2_0 _ _
    | ⟨1, _⟩ => exact (rhs2_1 _ _).trans hk
    | ⟨2, _⟩ => exact rhs2_2 _ _)
  rw [el, er]

/-! ## The sum of the weights over the descriptors, spread over the coordinates; the centres spread over the rows -/

/-- The index a reduction over the middle axis inserts descriptor `n` into `(b, k)` at. -/
theorem liftMid (h : S32x128x32.Reduces [1] S32x32) (b : Fin 32) (k : Fin 32) (n : Fin 128) :
    h.lift (ix2 b k) n = ix3 b n k :=
  funext fun ax => Fin.ext (by
    match ax with
    | ⟨0, _⟩ => rfl
    | ⟨1, _⟩ => rfl
    | ⟨2, _⟩ => rfl)

/-- The sum over the middle axis at `(b, k)`. -/
theorem sumMid_apply (w : FVec Ideal S32x128x32 .f32) (h : S32x128x32.Reduces [1] S32x32) (b : Fin 32) (k : Fin 32) :
    multiReduction (F := Ideal) .add [1] S32x32 w 0x00000000#32 h (.inl rfl) rfl (ix2 b k) = ∑ n : Fin 128, w (ix3 b n k) := by
  refine (Ideal.multiReduction_add_single w _ h _ _ (ix2 b k)).trans ?_
  exact Finset.sum_congr rfl fun n _ => congrArg w (liftMid h b k n)

/-- A `[32, 32]` table given a unit middle axis, its last two axes swapped, then spread along the new last axis, reads at
    `(b, k, d)` its entry `(b, k)`. -/
theorem tableSpread_apply (u : FVec Ideal S32x32 .f32) (h1 : S32x32.ShapeCasts S32x1x32)
    (h2 : S32x1x32.Transposes [0, 2, 1] S32x32x1) (h3 : S32x32x1.Broadcasts S32x32x512)
    (b : Fin 32) (k : Fin 32) (d : Fin 512) :
    broadcastTo S32x32x512 (transpose S32x32x1 [0, 2, 1] (shapeCast S32x1x32 u h1) h2) h3 (ix3 b k d) = u (ix2 b k) := by
  refine (broadcastTo_apply _ h3 (ix3 b k d) (ix3 b k (0 : Fin 1)) fun ax => ?_).trans ?_
  · match ax with
    | ⟨0, _⟩ => rfl
    | ⟨1, _⟩ => rfl
    | ⟨2, _⟩ => rfl
  refine (transpose_ix3_021_apply (shapeCast S32x1x32 u h1) h2 b k (0 : Fin 1)).trans ?_
  exact shapeCast_apply u h1 _ _ (by
    rw [Shape.rowMajor_val_two, Shape.rowMajor_val_three]
    show b.val * 32 + k.val = (b.val * 1 + 0) * 32 + k.val
    omega)

/-- The centres, cast to themselves and spread over the rows of the block, read at `(b, k, d)` their entry `(0, k, d)`. -/
theorem centreSpread_apply (x4 : FVec Ideal S1x32x512 .f32) (h1 : S1x32x512.ShapeCasts S1x32x512)
    (h2 : S1x32x512.Broadcasts S32x32x512) (b : Fin 32) (k : Fin 32) (d : Fin 512) :
    broadcastTo S32x32x512 (shapeCast S1x32x512 x4 h1) h2 (ix3 b k d) = x4 (ix3 0 k d) := by
  rw [shapeCast_self]
  refine broadcastTo_apply x4 h2 (ix3 b k d) (ix3 (0 : Fin 1) k d) fun ax => ?_
  match ax with
  | ⟨0, _⟩ => rfl
  | ⟨1, _⟩ => rfl
  | ⟨2, _⟩ => rfl

/-- The tail at `(b, k, d)`: the weighted sum of descriptors less the sum of the weights times the centre. -/
theorem stTail_apply (w : FVec Ideal S32x128x32 .f32) (x0 : FVec Ideal S32x128x512 .f32) (x4 : FVec Ideal S1x32x512 .f32)
    (b : Fin 32) (k : Fin 32) (d : Fin 512) :
    stTail w x0 x4 (ix3 b k d)
      = (∑ n : Fin 128, w (ix3 b n k) * x0 (ix3 b n d)) - (∑ n : Fin 128, w (ix3 b n k)) * x4 (ix3 0 k d) := by
  unfold stTail
  rw [subf_apply, mulf_apply, matmul2_apply, tableSpread_apply, centreSpread_apply, sumMid_apply]

end Scores

/-- The residual the body forms, at row `b`, kept cluster `k`, coordinate `d`. -/
theorem resid_apply (x0 : Vec Ideal S32x128x512 .f32) (x1 : Vec Ideal S512x48 .f32) (x2 x3 : Vec Ideal S1x48 .f32)
    (x4 : Vec Ideal S1x32x512 .f32) (b : Fin 32) (k : Fin 32) (d : Fin 512) :
    k0_pay2 (F := Ideal) x0 x1 x2 x3 x4 (ix3 b k d)
      = resid (scoreK (xrow x0 b) (cmat x1) (rowv x2) (rowv x3)) (xrow x0 b) (ckd x4) k d := by
  rw [Scores.pay2_stages, Scores.stTail_apply]
  unfold resid
  have hw : ∀ n : Fin 128, Scores.stW3 (Scores.stW (Scores.stExp (Scores.stScores x0 x1 x2 x3))) (ix3 b n k)
      = soft (scoreK (xrow x0 b) (cmat x1) (rowv x2) (rowv x3)) n (kept k) := fun n => Scores.weights_apply x0 x1 x2 x3 b n k
  exact congrArg₂ (· - ·)
    (Finset.sum_congr rfl fun n _ => congrArg (· * x0 (ix3 b n d)) (hw n))
    (congrArg (· * x4 (ix3 0 k d)) (Finset.sum_congr rfl fun n _ => hw n))

end Cert.Vlad.Body

end
-- ==== Proof.KernelBlock.lean ====
/-
  The kernel body from the residual to the stored block: the guarded length per kept cluster, the quotient, the guarded
  length of the whole table of a row, the second quotient, and the exchange of the last two axes before the store.
-/
import proofs.«413358_j25056839205135_4_alg».proof.Proof.Gen.KernelIdeal.Frame
import proofs.«413358_j25056839205135_4_alg».proof.Proof.KernelScores
import Idealize.ShloMosaic.Lib.Pipeline.Value
import Idealize.ShloMosaic.Lib.ValueLayout
import Idealize.ShloMosaic.PureOps.Ideal.Laws

noncomputable section

namespace Cert.Vlad.Body

open Idealize.ShloMosaic Idealize.ShloMosaic.ValueIdx Cert.KernelIdeal Cert.KernelIdeal.Gen Cert.Vlad

/-! ## The guarded length of each kept cluster's residual -/

/-- The sum of a `[32, 32, 512]` table over its last axis, at `(b, k)`: the sum over `d` of the table at `(b, k, d)`. -/
theorem sum_last_apply (P : FVec Ideal S32x32x512 .f32) (h : S32x32x512.Reduces [2] S32x32) (hφ : FKind.Formats .f32)
    (hacc : (0x00000000#32 : BitVec 32) = FKind.add.neutral .f32 hφ) (b k : Fin 32) :
    multiReduction (F := Ideal) .add [2] S32x32 P 0x00000000#32 h hφ hacc (ix2 b k) = ∑ d : Fin 512, P (ix3 b k d) := by
  refine (Ideal.multiReduction_add_single P 0x00000000#32 h hφ hacc (ix2 b k)).trans ?_
  refine Finset.sum_congr rfl fun d _ => congrArg P ?_
  funext a
  match a with
  | ⟨0, _⟩ => exact Fin.ext rfl
  | ⟨1, _⟩ => exact Fin.ext rfl
  | ⟨2, _⟩ => exact Fin.ext rfl

/-- A `[32, 32]` table with a unit axis appended reads, at `(b, k, 0)`, the table at `(b, k)`. -/
theorem cast_col_apply {α : Type} (v : S32x32.Idx → α) (h : S32x32.ShapeCasts S32x32x1) (b k : Fin 32) (u : Fin 1) :
    shapeCast S32x32x1 v h (ix3 b k u) = v (ix2 b k) :=
  shapeCast_apply v h _ _ (by
    have hu : u.val = 0 := by omega
    rw [Shape.rowMajor_val_three, Shape.rowMajor_val_two]
    show b.val * 32 + k.val = (b.val * 32 + k.val) * 1 + u.val
    rw [hu, Nat.mul_one, Nat.add_zero])

/-- A `[32, 32, 1]` table spread over 512 coordinates reads, at `(b, k, d)`, the table at `(b, k, 0)`. -/
theorem spread_col_apply {α : Type} (v : S32x32x1.Idx → α) (h : S32x32x1.Broadcasts S32x32x512) (b k : Fin 32) (d : Fin 512) :
    broadcastTo S32x32x512 v h (ix3 b k d) = v (ix3 b k (0 : Fin 1)) := by
  refine broadcastTo_apply v h (ix3 b k d) (ix3 b k (0 : Fin 1)) fun a => ?_
  match a with
  | ⟨0, _⟩ => rfl
  | ⟨1, _⟩ => rfl
  | ⟨2, _⟩ => rfl

/-- The guarded length of each row of a `[32, 32, 512]` table, spread back over the coordinates: at `(b, k, d)` the larger
    of the guard and the square root of the sum over `d'` of the squares at `(b, k, d')`. -/
theorem guardLen_apply (P : FVec Ideal S32x32x512 .f32) (h1 : S32x32x512.Reduces [2] S32x32) (hφ : FKind.Formats .f32)
    (hacc : (0x00000000#32 : BitVec 32) = FKind.add.neutral .f32 hφ) (h2 : S32x32.ShapeCasts S32x32x1)
    (h3 : S32x32x1.Broadcasts S32x32x512) (b k : Fin 32) (d : Fin 512) :
    broadcastTo S32x32x512
      (maximumf (sqrt (shapeCast S32x32x1 (multiReduction (F := Ideal) .add [2] S32x32 (mulf P P) 0x00000000#32 h1 hφ hacc) h2))
        (broadcast S32x32x1 (FloatOps.ofBits (F := Ideal) .f32 0x2B8CBCCC#32))) h3 (ix3 b k d)
      = max (Ideal.sqrt (∑ d' : Fin 512, P (ix3 b k d') * P (ix3 b k d'))) guard := by
  refine (spread_col_apply _ h3 b k d).trans ?_
  show max (Ideal.sqrt (shapeCast S32x32x1 (multiReduction (F := Ideal) .add [2] S32x32 (mulf P P) 0x00000000#32 h1 hφ hacc) h2
    (ix3 b k (0 : Fin 1)))) guard = _
  rw [cast_col_apply _ h2 b k 0, sum_last_apply (mulf P P) h1 hφ hacc b k]
  rfl

/-! ## The guarded length of a row's whole table, and the stored block -/

/-- Dropping the last two axes of a `[32, 32, 512]` index keeps its first coordinate. -/
theorem drop_last_two_val (h : S32x32x512.Reduces [1, 2] S32) (i : S32x32x512.Idx) : (h.drop i 0).val = (i 0).val :=
  h.drop_apply_val_of_eq i 0 0

/-- The sum of a `[32, 32, 512]` table over its last two axes, at `b`: the sum over `k` and `d` of the table at `(b, k, d)`.
    The indices that drop to `b` are exactly the `(b, k, d)`, one for each pair `(k, d)`. -/
theorem sum_last_two_apply (P : FVec Ideal S32x32x512 .f32) (h : S32x32x512.Reduces [1, 2] S32) (hφ : FKind.Formats .f32)
    (hacc : (0x00000000#32 : BitVec 32) = FKind.add.neutral .f32 hφ) (b : Fin 32) :
    multiReduction (F := Ideal) .add [1, 2] S32 P 0x00000000#32 h hφ hacc (ix1 b)
      = ∑ k : Fin 32, ∑ d : Fin 512, P (ix3 b k d) := by
  show Ideal.reduceAdd h P (ix1 b) = _
  unfold Ideal.reduceAdd
  rw [← Finset.sum_product' (Finset.univ : Finset (Fin 32)) (Finset.univ : Finset (Fin 512)) (fun k d => P (ix3 b k d))]
  have back : ∀ i ∈ Finset.univ.filter (fun i : S32x32x512.Idx => h.drop i = ix1 b), ix3 b (i 1) (i 2) = i := by
    intro i hi
    have hi' := (Finset.mem_filter.1 hi).2
    have h0 : (i 0).val = b.val := (drop_last_two_val h i).symm.trans (congrArg (fun j => (j 0).val) hi')
    funext a
    match a with
    | ⟨0, _⟩ => exact Fin.ext h0.symm
    | ⟨1, _⟩ => rfl
    | ⟨2, _⟩ => rfl
  refine Finset.sum_nbij' (fun i => ((i 1 : Fin 32), (i 2 : Fin 512))) (fun p => ix3 b p.1 p.2) ?_ ?_ back ?_ ?_
  · intro i _
    exact Finset.mem_product.2 ⟨Finset.mem_univ _, Finset.mem_univ _⟩
  · intro p _
    refine Finset.mem_filter.2 ⟨Finset.mem_univ _, ?_⟩
    funext a
    match a with
    | ⟨0, _⟩ => exact Fin.ext (drop_last_two_val h _)
  · intro p _
    rfl
  · intro i hi
    exact congrArg P (back i hi).symm

/-- A length-32 vector with two unit axes appended reads, at `(b, 0, 0)`, the vector at `b`. -/
theorem cast_row_apply {α : Type} (v : S32.Idx → α) (h : S32.ShapeCasts S32x1x1) (b : Fin 32) (u w : Fin 1) :
    shapeCast S32x1x1 v h (ix3 b u w) = v (ix1 b) :=
  shapeCast_apply v h _ _ (by
    have hu : u.val = 0 := by omega
    have hw : w.val = 0 := by omega
    rw [Shape.rowMajor_val_three, Shape.rowMajor_val_one]
    show b.val = (b.val * 1 + u.val) * 1 + w.val
    omega)

/-- A `[32, 1, 1]` table spread over 32 clusters and 512 coordinates reads, at `(b, k, d)`, the table at `(b, 0, 0)`. -/
theorem spread_row_apply {α : Type} (v : S32x1x1.Idx → α) (h : S32x1x1.Broadcasts S32x32x512) (b k : Fin 32) (d : Fin 512) :
    broadcastTo S32x32x512 v h (ix3 b k d) = v (ix3 b (0 : Fin 1) (0 : Fin 1)) := by
  refine broadcastTo_apply v h (ix3 b k d) (ix3 b (0 : Fin 1) (0 : Fin 1)) fun a => ?_
  match a with
  | ⟨0, _⟩ => rfl
  | ⟨1, _⟩ => rfl
  | ⟨2, _⟩ => rfl

/-- The guarded length of each whole `[32, 512]` table of a `[32, 32, 512]` stack, spread back over clusters and
    coordinates: at `(b, k, d)` the larger of the guard and the square root of the sum over `k'` and `d'` of the squares
    at `(b, k', d')`. -/
theorem guardLenAll_apply (Q : FVec Ideal S32x32x512 .f32) (h1 : S32x32x512.Reduces [1, 2] S32) (hφ : FKind.Formats .f32)
    (hacc : (0x00000000#32 : BitVec 32) = FKind.add.neutral .f32 hφ) (h2 : S32.ShapeCasts S32x1x1)
    (h3 : S32x1x1.Broadcasts S32x32x512) (b k : Fin 32) (d : Fin 512) :
    broadcastTo S32x32x512
      (maximumf (sqrt (shapeCast S32x1x1 (multiReduction (F := Ideal) .add [1, 2] S32 (mulf Q Q) 0x00000000#32 h1 hφ hacc) h2))
        (broadcast S32x1x1 (FloatOps.ofBits (F := Ideal) .f32 0x2B8CBCCC#32))) h3 (ix3 b k d)
      = max (Ideal.sqrt (∑ k' : Fin 32, ∑ d' : Fin 512, Q (ix3 b k' d') * Q (ix3 b k' d'))) guard := by
  refine (spread_row_apply _ h3 b k d).trans ?_
  show max (Ideal.sqrt (shapeCast S32x1x1 (multiReduction (F := Ideal) .add [1, 2] S32 (mulf Q Q) 0x00000000#32 h1 hφ hacc) h2
    (ix3 b (0 : Fin 1) (0 : Fin 1)))) guard = _
  rw [cast_row_apply _ h2 b 0 0, sum_last_two_apply (mulf Q Q) h1 hφ hacc b]
  rfl

/-- What the body stores, from the residual table `R` and the spread lengths `N`: at row `b`, coordinate `d`, cluster `k`,
    the quotient `R / N` at `(b, k, d)` over the guarded length of the row's whole table of quotients. -/
theorem pay1_apply (R N : FVec Ideal S32x32x512 .f32) (b : Fin 32) (d : Fin 512) (k : Fin 32) :
    k0_pay1 (F := Ideal) R N (ix3 b d k)
      = Ideal.div (Ideal.div (R (ix3 b k d)) (N (ix3 b k d)))
          (max (Ideal.sqrt (∑ k' : Fin 32, ∑ d' : Fin 512,
            Ideal.div (R (ix3 b k' d')) (N (ix3 b k' d')) * Ideal.div (R (ix3 b k' d')) (N (ix3 b k' d')))) guard) := by
  unfold k0_pay1
  refine (transpose_ix3_021_apply _ _ b d k).trans ?_
  refine (divf_apply _ _ _).trans ?_
  refine congrArg (Ideal.div (Ideal.div (R (ix3 b k d)) (N (ix3 b k d)))) ?_
  exact guardLenAll_apply (divf R N) _ _ _ _ _ b k d

/-! ## The two stated readings -/

/-- The broadcast guarded length, at row `b`, kept cluster `k`, any coordinate `d`. -/
theorem norm1_apply (x0 : Vec Ideal S32x128x512 .f32) (x1 : Vec Ideal S512x48 .f32) (x2 x3 : Vec Ideal S1x48 .f32)
    (x4 : Vec Ideal S1x32x512 .f32) (b : Fin 32) (k : Fin 32) (d : Fin 512) :
    k0_pay3 (F := Ideal) x0 x1 x2 x3 x4 (ix3 b k d)
      = norm1 (scoreK (xrow x0 b) (cmat x1) (rowv x2) (rowv x3)) (xrow x0 b) (ckd x4) k := by
  unfold k0_pay3
  refine (guardLen_apply (k0_pay2 (F := Ideal) x0 x1 x2 x3 x4) _ _ _ _ _ b k d).trans ?_
  unfold norm1
  refine congrArg (fun s => max (Ideal.sqrt s) guard) ?_
  exact Finset.sum_congr rfl fun d' _ => by rw [resid_apply]

/-- The block the body stores, at row `b`, coordinate `d`, kept cluster `k`: the row's pooled value. -/
theorem out_block_apply (x0 : Vec Ideal S32x128x512 .f32) (x1 : Vec Ideal S512x48 .f32) (x2 x3 : Vec Ideal S1x48 .f32)
    (x4 : Vec Ideal S1x32x512 .f32) (b : Fin 32) (d : Fin 512) (k : Fin 32) :
    out0_5 (F := Ideal) x0 x1 x2 x3 x4 (ix3 b d k)
      = pooled (scoreK (xrow x0 b) (cmat x1) (rowv x2) (rowv x3)) (xrow x0 b) (ckd x4) d k := by
  have hz3 : (![0, 0, 0] : Fin 3 → Nat) = fun _ => 0 := by
    funext a
    match a with
    | ⟨0, _⟩ => rfl
    | ⟨1, _⟩ => rfl
    | ⟨2, _⟩ => rfl
  have hz2 : (![0, 0] : Fin 2 → Nat) = fun _ => 0 := by
    funext a
    match a with
    | ⟨0, _⟩ => rfl
    | ⟨1, _⟩ => rfl
  unfold out0_5
  rw [View.canon_unit_zero hz3]
  simp only [View.ld_unit_zero (S := S32x128x512) hz3, View.ld_unit_zero (S := S512x48) hz2,
    View.ld_unit_zero (S := S1x48) hz2, View.ld_unit_zero (S := S1x32x512) hz3]
  rw [pay1_apply]
  simp only [resid_apply, norm1_apply]
  rfl

end Cert.Vlad.Body

end
-- ==== Proof.KernelValue.lean ====
/-
  The kernel's run, read: what its result buffer holds as one function of the seven arguments.

  Before the region three host lines fold the batch-norm vectors: a scale row `w · rsqrt (v + eps)`, a shift row
  `b − (mean · w) · rsqrt (v + eps)`, and the centres with their last two axes exchanged. The region runs 128 points; at
  point `t` the descriptors' window holds batch rows `32 · t … 32 · t + 31`, the four parameter windows hold their whole
  arrays, and the body leaves in the output window, at row `b`, coordinate `d`, kept cluster `k`, the pooled value of
  batch row `32 · t + b`. The 128 output blocks tile the `[4096, 512, 32]` array, so after the run it is `G`, the pooled
  value of every batch row; one host line merges its last two axes (index `32 · d + k`).
-/
import proofs.«413358_j25056839205135_4_alg».proof.Proof.Gen.KernelIdeal.Frame
import proofs.«413358_j25056839205135_4_alg».proof.Proof.KernelBlock
import Idealize.ShloMosaic.Lib.Pipeline.Value
import Idealize.ShloMosaic.Lib.StableHlo.Run
import Idealize.ShloMosaic.Lib.ValueLayout

noncomputable section

namespace Cert.Vlad.Run

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arguments by coordinates -/

/-- The descriptors as launched. -/
abbrev aX (c : Dev nD) : S4096x128x512.Idx → EReal := m ((c : Thread nD τ).loc main_arg0)
/-- The cluster matrix as launched. -/
abbrev aC (c : Dev nD) : S512x48.Idx → EReal := m ((c : Thread nD τ).loc main_arg1)
/-- Weight, bias, running mean, running variance as launched. -/
abbrev aW (c : Dev nD) : S48.Idx → EReal := m ((c : Thread nD τ).loc main_arg2)
abbrev aB (c : Dev nD) : S48.Idx → EReal := m ((c : Thread nD τ).loc main_arg3)
abbrev aM (c : Dev nD) : S48.Idx → EReal := m ((c : Thread nD τ).loc main_arg4)
abbrev aV (c : Dev nD) : S48.Idx → EReal := m ((c : Thread nD τ).loc main_arg5)
/-- The centres as launched (coordinate-major). -/
abbrev aK (c : Dev nD) : S1x512x32.Idx → EReal := m ((c : Thread nD τ).loc main_arg6)

/-- Batch row `B` of the descriptors. -/
abbrev gx (c : Dev nD) (B : Fin 4096) : Fin 128 → Fin 512 → EReal := fun n d => aX m c (ix3 B n d)
/-- The cluster matrix by coordinates. -/
abbrev gC (c : Dev nD) : Fin 512 → Fin 48 → EReal := fun d k => aC m c (ix2 d k)
/-- A rank-one array as a vector. -/
abbrev gv (a : S48.Idx → EReal) : Fin 48 → EReal := fun k => a (ix1 k)
/-- The centres by coordinates. -/
abbrev gK (c : Dev nD) : Fin 512 → Fin 32 → EReal := fun d k => aK m c (ix3 0 d k)

/-! ## What the host lines before the region leave -/

/-- The scale row the region finds: weight times inverse deviation, as one row. -/
theorem V_scale (c : Dev nD) : (V m c main_v4 : S1x48.Idx → EReal)
    = shapeCast S1x48 (mulf (aW m c) (Host.rsqrt (addf (aV m c) (broadcastInDim S48 ![] bcast_S_S48 (constant (F := Ideal) S_ .f32 0x3727C5AC#32))))) shapeCasts_S48_S1x48 := by
  show StableHlo.after hostOps0 (fun b => m (c, b)) (Proc.devRef .tc main_v4) = _
  after_results
  rfl

/-- The shift row the region finds: bias less (mean times weight) times inverse deviation, as one row. -/
theorem V_shift (c : Dev nD) : (V m c main_v8 : S1x48.Idx → EReal)
    = shapeCast S1x48 (subf (aB m c) (mulf (mulf (aM m c) (aW m c)) (Host.rsqrt (addf (aV m c) (broadcastInDim S48 ![] bcast_S_S48 (constant (F := Ideal) S_ .f32 0x3727C5AC#32)))))) shapeCasts_S48_S1x48 := by
  show StableHlo.after hostOps0 (fun b => m (c, b)) (Proc.devRef .tc main_v8) = _
  after_results
  rfl

/-- The centres the region finds: the last two axes exchanged. -/
theorem V_centres (c : Dev nD) : (V m c main_v9 : S1x32x512.Idx → EReal)
    = transpose S1x32x512 [0, 2, 1] (aK m c) transposes_S1x512x32_S1x32x512_0_2_1 := by
  show StableHlo.after hostOps0 (fun b => m (c, b)) (Proc.devRef .tc main_v9) = _
  after_results

/-- The scale row, entry by entry, is the folded scale. -/
theorem scale_row (c : Dev nD) : Body.rowv (V m c main_v4) = scaleOf (gv (aW m c)) (gv (aV m c)) := by
  funext k
  show (V m c main_v4 : S1x48.Idx → EReal) (ix2 0 k) = _
  rw [V_scale, shapeCast_a_1a_apply]
  rfl

/-- The shift row, entry by entry, is the folded shift. -/
theorem shift_row (c : Dev nD) : Body.rowv (V m c main_v8) = shiftOf (gv (aW m c)) (gv (aB m c)) (gv (aM m c)) (gv (aV m c)) := by
  funext k
  show (V m c main_v8 : S1x48.Idx → EReal) (ix2 0 k) = _
  rw [V_shift, shapeCast_a_1a_apply]
  rfl

/-- The staged centres read coordinate-major are the launched centres. -/
theorem centres_row (c : Dev nD) : Body.ckd (V m c main_v9) = gK m c := by
  funext d k
  show (V m c main_v9 : S1x32x512.Idx → EReal) (ix3 0 k d) = _
  rw [V_centres, transpose_ix3_021_apply]

/-! ## The windows' blocks, read off their arrays -/

/-- The printed index maps over the grid: the descriptors' and the output's block index is the point on the batch axis,
    zero on the others; the four parameter windows stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = 0 ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- Batch row `32 · t + b`, the row `b` of point `t`'s block. -/
abbrev rowOf (t : Fin cfg0.N) (b : Fin 32) : Fin 4096 := ⟨32 * t.val + b.val, by have := t.isLt; have := b.isLt; have : cfg0.N = 128 := N_0; omega⟩

/-- Row `b` of the descriptors' block at point `t` is batch row `32 · t + b`. -/
theorem block_x (c : Dev nD) (t : Fin cfg0.N) (b : Fin 32) :
    Body.xrow (iblk m c 0 t) b = gx m c (rowOf t b) := by
  obtain ⟨e0, e1, e2, -⟩ := idx_facts t
  funext n d
  show iblk m c 0 t (ix3 b n d) = _
  unfold iblk
  rw [View.read_apply]
  show V m c main_arg0 _ = aX m c _
  rw [V_main_arg0]
  congr 1
  funext a
  apply Fin.ext
  match a with
  | ⟨0, _⟩ => show win0_0.index t (0 : Fin 3) * 32 + 1 * b.val = 32 * t.val + b.val; rw [e0]; omega
  | ⟨1, _⟩ => show win0_0.index t (1 : Fin 3) * 128 + 1 * n.val = n.val; rw [e1]; omega
  | ⟨2, _⟩ => show win0_0.index t (2 : Fin 3) * 512 + 1 * d.val = d.val; rw [e2]; omega

/-- The cluster matrix's block is the whole matrix. -/
theorem block_c (c : Dev nD) (t : Fin cfg0.N) : Body.cmat (iblk m c 1 t) = gC m c := by
  obtain ⟨-, -, -, e0, e1, -⟩ := idx_facts t
  funext d k
  show iblk m c 1 t (ix2 d k) = _
  unfold iblk
  rw [View.read_apply]
  show V m c main_arg1 _ = aC m c _
  rw [V_main_arg1]
  congr 1
  funext a
  apply Fin.ext
  match a with
  | ⟨0, _⟩ => show win0_1.index t (0 : Fin 2) * 512 + 1 * d.val = d.val; rw [e0]; omega
  | ⟨1, _⟩ => show win0_1.index t (1 : Fin 2) * 48 + 1 * k.val = k.val; rw [e1]; omega

/-- The scale window's block is the whole row the host lines left. -/
theorem block_scale (c : Dev nD) (t : Fin cfg0.N) : Body.rowv (iblk m c 2 t) = Body.rowv (V m c main_v4) := by
  obtain ⟨-, -, -, -, -, e0, e1, -⟩ := idx_facts t
  funext k
  show iblk m c 2 t (ix2 0 k) = (V m c main_v4 : S1x48.Idx → EReal) (ix2 0 k)
  unfold iblk
  rw [View.read_apply]
  show V m c main_v4 _ = V m c main_v4 _
  congr 1
  funext a
  apply Fin.ext
  match a with
  | ⟨0, _⟩ => show win0_2.index t (0 : Fin 2) * 1 + 1 * 0 = 0; rw [e0]
  | ⟨1, _⟩ => show win0_2.index t (1 : Fin 2) * 48 + 1 * k.val = k.val; rw [e1]; omega

/-- The shift window's block is the whole row the host lines left. -/
theorem block_shift (c : Dev nD) (t : Fin cfg0.N) : Body.rowv (iblk m c 3 t) = Body.rowv (V m c main_v8) := by
  obtain ⟨-, -, -, -, -, -, -, e0, e1, -⟩ := idx_facts t
  funext k
  show iblk m c 3 t (ix2 0 k) = (V m c main_v8 : S1x48.Idx → EReal) (ix2 0 k)
  unfold iblk
  rw [View.read_apply]
  show V m c main_v8 _ = V m c main_v8 _
  congr 1
  funext a
  apply Fin.ext
  match a with
  | ⟨0, _⟩ => show win0_3.index t (0 : Fin 2) * 1 + 1 * 0 = 0; rw [e0]
  | ⟨1, _⟩ => show win0_3.index t (1 : Fin 2) * 48 + 1 * k.val = k.val; rw [e1]; omega

/-- The centres window's block is the whole array the host lines left. -/
theorem block_centres (c : Dev nD) (t : Fin cfg0.N) : Body.ckd (iblk m c 4 t) = Body.ckd (V m c main_v9) := by
  obtain ⟨-, -, -, -, -, -, -, -, -, e0, e1, e2, -⟩ := idx_facts t
  funext d k
  show iblk m c 4 t (ix3 0 k d) = (V m c main_v9 : S1x32x512.Idx → EReal) (ix3 0 k d)
  unfold iblk
  rw [View.read_apply]
  show V m c main_v9 _ = V m c main_v9 _
  congr 1
  funext a
  apply Fin.ext
  match a with
  | ⟨0, _⟩ => show win0_4.index t (0 : Fin 3) * 1 + 1 * 0 = 0; rw [e0]
  | ⟨1, _⟩ => show win0_4.index t (1 : Fin 3) * 32 + 1 * k.val = k.val; rw [e1]; omega
  | ⟨2, _⟩ => show win0_4.index t (2 : Fin 3) * 512 + 1 * d.val = d.val; rw [e2]; omega

/-! ## The output array from its blocks -/

/-- The output array: at batch row `B`, coordinate `d`, kept cluster `k`, the row's pooled value, the scores assembled
    with the folded scale and shift. -/
def G (c : Dev nD) : S4096x512x32.Idx → EReal := fun i =>
  pooled (scoreK (gx m c (i 0)) (gC m c) (scaleOf (gv (aW m c)) (gv (aV m c)))
      (shiftOf (gv (aW m c)) (gv (aB m c)) (gv (aM m c)) (gv (aV m c))))
    (gx m c (i 0)) (gK m c) (i 1) (i 2)

/-- What the body leaves at row `b`, coordinate `d`, kept cluster `k` of point `t`'s block is the output array's entry
    at batch row `32 · t + b`. -/
theorem block_out (c : Dev nD) (t : Fin cfg0.N) (b : Fin 32) (d : Fin 512) (k : Fin 32) :
    out0_5 (iblk m c 0 t) (iblk m c 1 t) (iblk m c 2 t) (iblk m c 3 t) (iblk m c 4 t) (ix3 b d k)
      = G m c (ix3 (rowOf t b) d k) := by
  rw [Body.out_block_apply (iblk m c 0 t) (iblk m c 1 t) (iblk m c 2 t) (iblk m c 3 t) (iblk m c 4 t) b d k,
    block_x, block_c, block_scale, block_shift, block_centres, scale_row, shift_row, centres_row]
  rfl

/-- What point `t` writes back is block `t` of the output array. -/
theorem flushed_eq (c : Dev nD) (t : Fin cfg0.N) :
    (dats m 0 c).flushed 5 t = ((cfg0.win 5).blk t).view.read (Elt Ideal) (G m c) := by
  obtain ⟨-, -, -, -, -, -, -, -, -, -, -, -, e0, e1, e2⟩ := idx_facts t
  show (cfg0.win 5).cut (grid0.coords t) ((dats m 0 c).after 5 t) = _
  rw [after0_5]
  funext j
  rw [View.read_apply]
  show out0_5 (iblk m c 0 t) (iblk m c 1 t) (iblk m c 2 t) (iblk m c 3 t) (iblk m c 4 t) j = G m c (((cfg0.win 5).blk t).view.emb j)
  refine (congrArg (out0_5 (iblk m c 0 t) (iblk m c 1 t) (iblk m c 2 t) (iblk m c 3 t) (iblk m c 4 t)) (eq_ix3 j)).trans ?_
  refine (block_out m c t (j 0) (j 1) (j 2)).trans (congrArg (G m c) ?_)
  funext a
  apply Fin.ext
  match a with
  | ⟨0, _⟩ => show 32 * t.val + (j 0).val = win0_5.index t (0 : Fin 3) * 32 + 1 * (j 0).val; rw [e0]; omega
  | ⟨1, _⟩ => show (j 1).val = win0_5.index t (1 : Fin 3) * 512 + 1 * (j 1).val; rw [e1]; omega
  | ⟨2, _⟩ => show (j 2).val = win0_5.index t (2 : Fin 3) * 32 + 1 * (j 2).val; rw [e2]; omega

/-- An index of the output array is in point `t`'s block iff each coordinate is in the block's range on its axis. -/
theorem mem_blk (t : Fin cfg0.N) (i : S4096x512x32.Idx) :
    i ∈ ((cfg0.win 5).blk t).view.set ↔ ∀ a : Fin 3, win0_5.index t a * S32x512x32.size a ≤ (i a).val ∧ (i a).val < win0_5.index t a * S32x512x32.size a + S32x512x32.size a := by
  show i ∈ ((View.whole main_v10).slice (win0_5.rect t)).set ↔ _
  rw [View.set_slice_whole, Rect.mem_set_unit]
  exact Iff.rfl

/-- Every index of the output array is in the block of the point its batch row falls in. -/
theorem cover (i : S4096x512x32.Idx) : ∃ t : Fin cfg0.N, (cfg0.win 5).flush t = true ∧ i ∈ ((cfg0.win 5).blk t).view.set := by
  have h0 : (i 0).val < 4096 := (i 0).isLt
  have h1 : (i 1).val < 512 := (i 1).isLt
  have h2 : (i 2).val < 32 := (i 2).isLt
  have hN : cfg0.N = 128 := N_0
  refine ⟨⟨(i 0).val / 32, by omega⟩, flush0_5 _, ?_⟩
  obtain ⟨-, -, -, -, -, -, -, -, -, -, -, -, e0, e1, e2⟩ := idx_facts ⟨(i 0).val / 32, by omega⟩
  rw [mem_blk]
  intro a
  match a with
  | ⟨0, _⟩ => show win0_5.index _ (0 : Fin 3) * 32 ≤ (i 0).val ∧ (i 0).val < win0_5.index _ (0 : Fin 3) * 32 + 32; rw [e0]; show (i 0).val / 32 * 32 ≤ (i 0).val ∧ (i 0).val < (i 0).val / 32 * 32 + 32; omega
  | ⟨1, _⟩ => show win0_5.index _ (1 : Fin 3) * 512 ≤ (i 1).val ∧ (i 1).val < win0_5.index _ (1 : Fin 3) * 512 + 512; rw [e1]; omega
  | ⟨2, _⟩ => show win0_5.index _ (2 : Fin 3) * 32 ≤ (i 2).val ∧ (i 2).val < win0_5.index _ (2 : Fin 3) * 32 + 32; rw [e2]; omega

/-- The output array after the run. -/
theorem final (c : Dev nD) : (dats m 0 c).arrAt 5 cfg0.N = G m c :=
  (dats m 0 c).arrAt_eq_of_cover 5 (G m c) (fun t _ => flushed_eq m c t) (cover)

/-! ## The host lines after the region, and the run -/

/-- The result: the output array with its last two axes merged, index `32 · d + k`. -/
def result (c : Dev nD) : S4096x16384.Idx → EReal :=
  shapeCast S4096x16384 (G m c) shapeCasts_S4096x512x32_S4096x16384

/-- The one host line after the region reshapes the output array. -/
theorem tail_result (c : Dev nD) :
    Pipeline.afterTail₀ cfgs (dats m) 0 (V0 m) [hostOps1] c main_v11 = result m c := by
  unfold Pipeline.afterTail₀
  show StableHlo.after hostOps1 _ (Proc.devRef .tc main_v11) = _
  after_results
  unfold result
  rw [show Pipeline.withArrays spec0 c (V0 m c) (fun w => (dats m 0 c).arrAt w cfg0.N) (Proc.devRef .tc main_v10) = G m c from
    (Pipeline.withArrays_arr spec0 launch0.win.arr_inj c _ _ 5).trans (final m c)]
  rfl

/-- The run, read: the result buffer at `result`, every argument as launched. -/
theorem run : θ_run defs (onTc (τ := τ) (main (F := Ideal))) ⟨m, fun _ => 0, ρ⟩ fun r => ∀ c : Dev nD,
      r.2.mem ((c.tc : Thread nD τ).loc main_v11) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v11 (Pipeline.mem_restRefs_of main_v11 (by decide) (by decide))).trans (tail_result m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.Vlad.Run

end
-- ==== Proof.RefSoft.lean ====
/-
  The reference up to the kept weights: at batch row `B`, descriptor `n` and kept cluster `k` the sliced
  quotient is `soft` of the row's scores in the unfolded form.
-/
import proofs.«413358_j25056839205135_4_alg».proof.Proof.Gen.ReferenceIdeal.Read
import proofs.«413358_j25056839205135_4_alg».proof.Proof.Spec
import Idealize.ShloMosaic.PureOps.Reduce

noncomputable section

namespace Cert.Vlad.Ref

open Idealize.ShloMosaic Idealize.ShloMosaic.ValueIdx Cert.ReferenceIdeal Cert.ReferenceIdeal.Read Cert.Vlad

/-- Batch row `B` of the descriptors. -/
abbrev xrow (x0 : (⟨S4096x128x512, .f32⟩ : BufTy).Contents (Elt Ideal)) (B : Fin 4096) : Fin 128 → Fin 512 → EReal :=
  fun n d => x0 (ix3 B n d)
/-- The cluster matrix by coordinates. -/
abbrev cmat (x1 : (⟨S512x48, .f32⟩ : BufTy).Contents (Elt Ideal)) : Fin 512 → Fin 48 → EReal := fun d k => x1 (ix2 d k)
/-- A rank-one array as a vector. -/
abbrev vec (x : (⟨S48, .f32⟩ : BufTy).Contents (Elt Ideal)) : Fin 48 → EReal := fun k => x (ix1 k)
/-- The centres by coordinates. -/
abbrev cdk (x6 : (⟨S1x512x32, .f32⟩ : BufTy).Contents (Elt Ideal)) : Fin 512 → Fin 32 → EReal := fun d k => x6 (ix3 0 d k)

/-- The left operand's index of the product, at row `B`, descriptor `n`, summed coordinate `d`. -/
private theorem lidx0 (B : Fin 4096) (n : Fin 128) (k' : Fin 48) (d : Fin 512) :
    lidx_main_v0 (ix3 B n k') d = ix3 B n d :=
  funext fun a => by match a with | ⟨0, _⟩ => rfl | ⟨1, _⟩ => rfl | ⟨2, _⟩ => rfl

/-- The right operand's index of the product, at summed coordinate `d` and cluster `k'`. -/
private theorem ridx0 (B : Fin 4096) (n : Fin 128) (k' : Fin 48) (d : Fin 512) :
    ridx_main_v0 (ix3 B n k') d = ix2 d k' :=
  funext fun a => by match a with | ⟨0, _⟩ => rfl | ⟨1, _⟩ => rfl

/-- The running mean is read at the cluster coordinate. -/
private theorem vidx4 (B : Fin 4096) (n : Fin 128) (k' : Fin 48) :
    idx_main_v4 (idx_main_v5 (ix3 B n k')) = ix1 k' :=
  funext fun a => by match a with | ⟨0, _⟩ => rfl

/-- The inverse deviation is read at the cluster coordinate. -/
private theorem vidx7 (B : Fin 4096) (n : Fin 128) (k' : Fin 48) :
    idx_main_v7 (idx_main_v8 (ix3 B n k')) = ix1 k' :=
  funext fun a => by match a with | ⟨0, _⟩ => rfl

/-- The weight is read at the cluster coordinate. -/
private theorem vidx10 (B : Fin 4096) (n : Fin 128) (k' : Fin 48) :
    idx_main_v10 (idx_main_v11 (ix3 B n k')) = ix1 k' :=
  funext fun a => by match a with | ⟨0, _⟩ => rfl

/-- The bias is read at the cluster coordinate. -/
private theorem vidx13 (B : Fin 4096) (n : Fin 128) (k' : Fin 48) :
    idx_main_v13 (idx_main_v14 (ix3 B n k')) = ix1 k' :=
  funext fun a => by match a with | ⟨0, _⟩ => rfl

/-- The score of descriptor `n` of row `B` against cluster `k'`: the product summed over the 512 coordinates, less
    the mean, times the inverse deviation, times the weight, plus the bias. -/
private theorem score_apply (x0 : (⟨S4096x128x512, .f32⟩ : BufTy).Contents (Elt Ideal)) (x1 : (⟨S512x48, .f32⟩ : BufTy).Contents (Elt Ideal))
    (x2 x3 x4 x5 : (⟨S48, .f32⟩ : BufTy).Contents (Elt Ideal)) (B : Fin 4096) (n : Fin 128) (k' : Fin 48) :
    val_main_v15 (F := Ideal) x0 x1 x2 x3 x4 x5 (ix3 B n k')
      = scoreR (xrow x0 B) (cmat x1) (vec x2) (vec x3) (vec x4) (vec x5) n k' := by
  rw [val_main_v15_apply, val_main_v12_apply, val_main_v9_apply, val_main_v6_apply, val_main_v0_apply,
    val_main_v5_apply, val_main_v4_apply, val_main_v8_apply, val_main_v7_apply, val_main_v3_apply,
    val_main_v2_apply, val_main_v1_apply, val_main_cst_apply, val_main_v11_apply, val_main_v10_apply,
    val_main_v14_apply, val_main_v13_apply]
  simp only [lidx0, ridx0, vidx4, vidx7, vidx10, vidx13, Ideal.addf_def, Ideal.subf_def, Ideal.mulf_def,
    Ideal.hostUnary_rsqrt_def, Ideal.ofBits_def]
  rfl

/-- The index over `(B, n)` with cluster coordinate `k'` inserted on the reduced axis. -/
private theorem lift2 (h : S4096x128x48.Reduces [2] S4096x128) (B : Fin 4096) (n : Fin 128) (k' : Fin 48) :
    h.lift (ix2 B n) k' = ix3 B n k' :=
  funext fun a => Fin.ext (by match a with | ⟨0, _⟩ => rfl | ⟨1, _⟩ => rfl | ⟨2, _⟩ => rfl)

/-- The maximum over the 48 scores of descriptor `n` of row `B`, folded from the lowest value. -/
private theorem max_apply (x0 : (⟨S4096x128x512, .f32⟩ : BufTy).Contents (Elt Ideal)) (x1 : (⟨S512x48, .f32⟩ : BufTy).Contents (Elt Ideal))
    (x2 x3 x4 x5 : (⟨S48, .f32⟩ : BufTy).Contents (Elt Ideal)) (B : Fin 4096) (n : Fin 128) :
    val_main_v16 (F := Ideal) x0 x1 x2 x3 x4 x5 (ix2 B n)
      = rowMax (scoreR (xrow x0 B) (cmat x1) (vec x2) (vec x3) (vec x4) (vec x5) n) := by
  unfold val_main_v16
  rw [Host.reduce_eq_fold_single FloatOps.maximumf _ _ Gen.reducesTo_S4096x128x48_S4096x128_d2 (by decide) Gen.h_S_ (ix2 B n)]
  have hf : val_main_v15 (F := Ideal) x0 x1 x2 x3 x4 x5
        ∘ (Shape.Reduces.lift (s := S4096x128x48) (a := 2) (t := S4096x128) (by decide) (ix2 B n))
      = scoreR (xrow x0 B) (cmat x1) (vec x2) (vec x3) (vec x4) (vec x5) n :=
    funext fun k' => (congrArg (val_main_v15 (F := Ideal) x0 x1 x2 x3 x4 x5) (lift2 _ B n k')).trans (score_apply x0 x1 x2 x3 x4 x5 B n k')
  rw [hf, val_main_cst_0_apply]
  rfl

/-- The row maximum is broadcast back along the cluster axis: read at `(B, n)`. -/
private theorem idx1920 (B : Fin 4096) (n : Fin 128) (k' : Fin 48) :
    idx_main_v19 (idx_main_v20 (ix3 B n k')) = ix2 B n :=
  funext fun a => by match a with | ⟨0, _⟩ => rfl | ⟨1, _⟩ => rfl

/-- The row sum is broadcast back along the cluster axis: read at `(B, n)`. -/
private theorem idx2425 (B : Fin 4096) (n : Fin 128) (k' : Fin 48) :
    idx_main_v24 (idx_main_v25 (ix3 B n k')) = ix2 B n :=
  funext fun a => by match a with | ⟨0, _⟩ => rfl | ⟨1, _⟩ => rfl

/-- The row sum's summand `j` is read at `(B, n, j)`. -/
private theorem idx23 (B : Fin 4096) (n : Fin 128) (j : Fin 48) :
    idx_main_v23 (ix2 B n) j = ix3 B n j :=
  funext fun a => by match a with | ⟨0, _⟩ => rfl | ⟨1, _⟩ => rfl | ⟨2, _⟩ => rfl

/-- The slice keeps the first 32 clusters: kept cluster `k` is cluster `k` of the 48. -/
private theorem idx27 (B : Fin 4096) (n : Fin 128) (k : Fin 32) :
    idx_main_v27 (ix3 B n k) = ix3 B n (kept k) :=
  funext fun a => by match a with | ⟨0, _⟩ => rfl | ⟨1, _⟩ => rfl | ⟨2, _⟩ => rfl

/-- The exponential of a score below its row's maximum; the maximum taken once more against the lowest value
    is the maximum itself. -/
private theorem exp_apply (x0 : (⟨S4096x128x512, .f32⟩ : BufTy).Contents (Elt Ideal)) (x1 : (⟨S512x48, .f32⟩ : BufTy).Contents (Elt Ideal))
    (x2 x3 x4 x5 : (⟨S48, .f32⟩ : BufTy).Contents (Elt Ideal)) (B : Fin 4096) (n : Fin 128) (k' : Fin 48) :
    val_main_v22 (F := Ideal) x0 x1 x2 x3 x4 x5 (ix3 B n k')
      = Ideal.exp (scoreR (xrow x0 B) (cmat x1) (vec x2) (vec x3) (vec x4) (vec x5) n k'
          - rowMax (scoreR (xrow x0 B) (cmat x1) (vec x2) (vec x3) (vec x4) (vec x5) n)) := by
  rw [val_main_v22_apply, val_main_v21_apply, val_main_v20_apply, val_main_v19_apply, val_main_v18_apply,
    val_main_v17_apply, val_main_cst_1_apply, idx1920, max_apply, score_apply]
  simp only [Ideal.hostUnary_exp_def, Ideal.subf_def, Ideal.maximumf_def, Ideal.ofBits_def]
  rw [max_eq_right]
  exact (Finset.le_fold_max _).mpr (Or.inl le_rfl)

/-- The kept weights of the reference. -/
theorem soft_apply (x0 : (⟨S4096x128x512, .f32⟩ : BufTy).Contents (Elt Ideal)) (x1 : (⟨S512x48, .f32⟩ : BufTy).Contents (Elt Ideal))
    (x2 x3 x4 x5 : (⟨S48, .f32⟩ : BufTy).Contents (Elt Ideal)) (B : Fin 4096) (n : Fin 128) (k : Fin 32) :
    val_main_v27 (F := Ideal) x0 x1 x2 x3 x4 x5 (ix3 B n k)
      = soft (scoreR (xrow x0 B) (cmat x1) (vec x2) (vec x3) (vec x4) (vec x5)) n (kept k) := by
  rw [val_main_v27_apply, idx27, val_main_v26_apply, val_main_v25_apply, val_main_v24_apply, idx2425,
    val_main_v23_apply, val_main_cst_2_apply, exp_apply]
  simp only [idx23, exp_apply, Ideal.hostDivf_def, Ideal.ofBits_def, Ideal.ofBits_zero_f32, zero_add]
  rfl

end Cert.Vlad.Ref

end
-- ==== Proof.LibSumBlocks.lean ====
import Mathlib.Data.Fintype.BigOperators
import Mathlib.Logic.Equiv.Fin.Basic

/-! # A sum over consecutive blocks

A sum over `A * B` consecutive indices, cut into `A` blocks of `B`: entry `r` of block `t` is index `B * t + r`. -/

namespace Cert.LibSumBlocks

open scoped BigOperators

/-- Entry `r` of block `t`, of `A` blocks of `B` entries each, is below `A * B`. -/
theorem block_lt {A B N : ℕ} (h : A * B = N) (t : Fin A) (r : Fin B) : B * t.val + r.val < N := by
  have h1 : B * (t.val + 1) ≤ B * A := Nat.mul_le_mul_left _ t.isLt
  have h2 : B * (t.val + 1) = B * t.val + B := Nat.mul_succ _ _
  have h3 := r.isLt
  rw [← h, Nat.mul_comm A B]
  omega

/-- THE SUM BY BLOCKS: over `N = A * B` indices, the sum over the `A` blocks of the sum over the `B` entries inside
    each block, entry `r` of block `t` being index `B * t + r`, is the sum over all `N` indices, in any additive
    commutative monoid. -/
theorem sum_blocks {M : Type*} [AddCommMonoid M] {A B N : ℕ} (h : A * B = N) (f : Fin N → M) :
    ∑ t : Fin A, ∑ r : Fin B, f ⟨B * t.val + r.val, block_lt h t r⟩ = ∑ n : Fin N, f n := by
  subst h
  rw [← Fintype.sum_prod_type' (fun (t : Fin A) (r : Fin B) => f ⟨B * t.val + r.val, block_lt rfl t r⟩)]
  refine Fintype.sum_equiv finProdFinEquiv _ _ fun x => ?_
  refine congrArg f (Fin.ext ?_)
  show B * x.1.val + x.2.val = x.2.val + B * x.1.val
  exact Nat.add_comm _ _

end Cert.LibSumBlocks
-- ==== Proof.RefPooled.lean ====
/-
  The reference from the kept weights to its result: residual, first guarded quotient, the flattening of
  (coordinate, cluster) into one axis of length 16384 (index `32 · d + k`), and the second guarded quotient, whose sum
  over the flat axis is the double sum over clusters and coordinates.
-/
import proofs.«413358_j25056839205135_4_alg».proof.Proof.RefSoft
import proofs.«413358_j25056839205135_4_alg».proof.Proof.LibSumBlocks

noncomputable section

namespace Cert.Vlad.Ref

open Idealize.ShloMosaic Idealize.ShloMosaic.ValueIdx Cert.ReferenceIdeal Cert.ReferenceIdeal.Read Cert.Vlad

/-- The kept weights summed over the descriptors: `Σ_n soft n k`, the initial value of the sum being the zero word. -/
theorem wsum_apply (x0 : (⟨S4096x128x512, .f32⟩ : BufTy).Contents (Elt Ideal)) (x1 : (⟨S512x48, .f32⟩ : BufTy).Contents (Elt Ideal))
    (x2 x3 x4 x5 : (⟨S48, .f32⟩ : BufTy).Contents (Elt Ideal))
    (B : Fin 4096) (k : Fin 32) :
    val_main_v28 (F := Ideal) x0 x1 x2 x3 x4 x5 (ix2 B k)
      = ∑ n : Fin 128, soft (scoreR (xrow x0 B) (cmat x1) (vec x2) (vec x3) (vec x4) (vec x5)) n (kept k) := by
  rw [val_main_v28_apply, val_main_cst_3_apply, Ideal.ofBits_def, Ideal.ofBits_zero_f32, zero_add]
  refine Finset.sum_congr rfl fun n _ => ?_
  rw [← soft_apply]
  exact congrArg _ (funext fun a => Fin.ext (by match a with | ⟨0, _⟩ => rfl | ⟨1, _⟩ => rfl | ⟨2, _⟩ => rfl))

/-- The residual at `(B, d, k)`: the contraction over descriptors `n` of descriptor times weight (the factors commuted
    under the sum), less the summed weight times the centre read at `(0, d, k)`. -/
theorem resid_apply (x0 : (⟨S4096x128x512, .f32⟩ : BufTy).Contents (Elt Ideal)) (x1 : (⟨S512x48, .f32⟩ : BufTy).Contents (Elt Ideal))
    (x2 x3 x4 x5 : (⟨S48, .f32⟩ : BufTy).Contents (Elt Ideal)) (x6 : (⟨S1x512x32, .f32⟩ : BufTy).Contents (Elt Ideal))
    (B : Fin 4096) (d : Fin 512) (k : Fin 32) :
    val_main_v34 (F := Ideal) x0 x1 x2 x3 x4 x5 x6 (ix3 B d k)
      = resid (scoreR (xrow x0 B) (cmat x1) (vec x2) (vec x3) (vec x4) (vec x5)) (xrow x0 B) (cdk x6) k d := by
  have e28 : idx_main_v29 (idx_main_v30 (ix3 B d k)) = ix2 B k :=
    funext fun a => Fin.ext (by match a with | ⟨0, _⟩ => rfl | ⟨1, _⟩ => rfl)
  have e31 : idx_main_v31 (ix3 B d k) = ix3 0 d k :=
    funext fun a => Fin.ext (by match a with | ⟨0, _⟩ => rfl | ⟨1, _⟩ => rfl | ⟨2, _⟩ => rfl)
  rw [val_main_v34_apply, Ideal.subf_def, val_main_v33_apply, val_main_v32_apply, Ideal.mulf_def,
    val_main_v30_apply, val_main_v29_apply, val_main_v31_apply, e28, e31, wsum_apply]
  unfold resid
  congr 1
  refine Finset.sum_congr rfl fun n _ => ?_
  have el : lidx_main_v33 (ix3 B d k) n = ix3 B n d :=
    funext fun a => Fin.ext (by match a with | ⟨0, _⟩ => rfl | ⟨1, _⟩ => rfl | ⟨2, _⟩ => rfl)
  have er : ridx_main_v33 (ix3 B d k) n = ix3 B n k :=
    funext fun a => Fin.ext (by match a with | ⟨0, _⟩ => rfl | ⟨1, _⟩ => rfl | ⟨2, _⟩ => rfl)
  rw [el, er, soft_apply, mul_comm]

/-- The first guarded length at `(B, 0, k)`: the square root of `Σ_d resid²` (the sum starts from the zero word),
    bounded below by the guard. -/
theorem norm1_apply (x0 : (⟨S4096x128x512, .f32⟩ : BufTy).Contents (Elt Ideal)) (x1 : (⟨S512x48, .f32⟩ : BufTy).Contents (Elt Ideal))
    (x2 x3 x4 x5 : (⟨S48, .f32⟩ : BufTy).Contents (Elt Ideal)) (x6 : (⟨S1x512x32, .f32⟩ : BufTy).Contents (Elt Ideal))
    (B : Fin 4096) (k : Fin 32) :
    val_main_v37 (F := Ideal) x0 x1 x2 x3 x4 x5 x6 (ix3 B 0 k)
      = norm1 (scoreR (xrow x0 B) (cmat x1) (vec x2) (vec x3) (vec x4) (vec x5)) (xrow x0 B) (cdk x6) k := by
  rw [val_main_v37_apply, Ideal.maximumf_def, val_main_v35_apply, Ideal.hostUnary_sqrt_def, val_main_call0_v2_apply,
    val_main_call0_v1_apply, val_main_call0_cst_apply, Ideal.ofBits_def, Ideal.ofBits_zero_f32, zero_add,
    val_main_v36_apply, val_main_cst_4_apply, Ideal.ofBits_def]
  unfold norm1
  congr 2
  refine Finset.sum_congr rfl fun d _ => ?_
  have e : idx_main_call0_v1 (idx_main_call0_v2 (ix3 B 0 k)) d = ix3 B d k :=
    funext fun a => Fin.ext (by match a with | ⟨0, _⟩ => rfl | ⟨1, _⟩ => rfl | ⟨2, _⟩ => rfl)
  rw [val_main_call0_v0_apply, Ideal.mulf_def, e, resid_apply]

/-- The first quotient at `(B, d, k)`: the residual over the guarded length of its cluster. -/
theorem intra_apply (x0 : (⟨S4096x128x512, .f32⟩ : BufTy).Contents (Elt Ideal)) (x1 : (⟨S512x48, .f32⟩ : BufTy).Contents (Elt Ideal))
    (x2 x3 x4 x5 : (⟨S48, .f32⟩ : BufTy).Contents (Elt Ideal)) (x6 : (⟨S1x512x32, .f32⟩ : BufTy).Contents (Elt Ideal))
    (B : Fin 4096) (d : Fin 512) (k : Fin 32) :
    val_main_v39 (F := Ideal) x0 x1 x2 x3 x4 x5 x6 (ix3 B d k)
      = intra (scoreR (xrow x0 B) (cmat x1) (vec x2) (vec x3) (vec x4) (vec x5)) (xrow x0 B) (cdk x6) k d := by
  have e : idx_main_v38 (ix3 B d k) = ix3 B 0 k :=
    funext fun a => Fin.ext (by match a with | ⟨0, _⟩ => rfl | ⟨1, _⟩ => rfl | ⟨2, _⟩ => rfl)
  rw [val_main_v39_apply, Ideal.hostDivf_def, val_main_v38_apply, e, resid_apply, norm1_apply]
  rfl

/-- The flattened table at the flat index `32 · d + k` is the first quotient at `(d, k)`: the flat position of
    `(B, 32 · d + k)` is `16384 · B + 32 · d + k`, whose three coordinates in `4096 × 512 × 32` are `B`, `d`, `k`. -/
theorem flat_apply (x0 : (⟨S4096x128x512, .f32⟩ : BufTy).Contents (Elt Ideal)) (x1 : (⟨S512x48, .f32⟩ : BufTy).Contents (Elt Ideal))
    (x2 x3 x4 x5 : (⟨S48, .f32⟩ : BufTy).Contents (Elt Ideal)) (x6 : (⟨S1x512x32, .f32⟩ : BufTy).Contents (Elt Ideal))
    (B : Fin 4096) (d : Fin 512) (k : Fin 32) :
    val_main_v40 (F := Ideal) x0 x1 x2 x3 x4 x5 x6 (ix2 B ⟨32 * d.val + k.val, Cert.LibSumBlocks.block_lt (A := 512) (B := 32) rfl d k⟩)
      = intra (scoreR (xrow x0 B) (cmat x1) (vec x2) (vec x3) (vec x4) (vec x5)) (xrow x0 B) (cdk x6) k d := by
  have hB := B.isLt
  have hd := d.isLt
  have hk := k.isLt
  have e : idx_main_v40 (ix2 B ⟨32 * d.val + k.val, Cert.LibSumBlocks.block_lt (A := 512) (B := 32) rfl d k⟩) = ix3 B d k :=
    funext fun a => Fin.ext (by
      match a with
      | ⟨0, _⟩ => show (B.val * 16384 + (32 * d.val + k.val)) / 16384 = B.val; omega
      | ⟨1, _⟩ => show (B.val * 16384 + (32 * d.val + k.val)) / 32 % 512 = d.val; omega
      | ⟨2, _⟩ => show (B.val * 16384 + (32 * d.val + k.val)) % 32 = k.val; omega)
  rw [val_main_v40_apply, e, intra_apply]

/-- The sum of squares over the flat axis is the double sum over clusters and coordinates: the flat axis is cut into
    512 blocks of 32 (block `d`, offset `k`), and the two sums are exchanged. -/
theorem flat_sum_sq (x0 : (⟨S4096x128x512, .f32⟩ : BufTy).Contents (Elt Ideal)) (x1 : (⟨S512x48, .f32⟩ : BufTy).Contents (Elt Ideal))
    (x2 x3 x4 x5 : (⟨S48, .f32⟩ : BufTy).Contents (Elt Ideal)) (x6 : (⟨S1x512x32, .f32⟩ : BufTy).Contents (Elt Ideal))
    (B : Fin 4096) :
    (∑ j : Fin 16384, val_main_v40 (F := Ideal) x0 x1 x2 x3 x4 x5 x6 (ix2 B j) * val_main_v40 (F := Ideal) x0 x1 x2 x3 x4 x5 x6 (ix2 B j))
      = ∑ k : Fin 32, ∑ d : Fin 512, intra (scoreR (xrow x0 B) (cmat x1) (vec x2) (vec x3) (vec x4) (vec x5)) (xrow x0 B) (cdk x6) k d
          * intra (scoreR (xrow x0 B) (cmat x1) (vec x2) (vec x3) (vec x4) (vec x5)) (xrow x0 B) (cdk x6) k d := by
  rw [← Cert.LibSumBlocks.sum_blocks (A := 512) (B := 32) (N := 16384) rfl, Finset.sum_comm]
  refine Finset.sum_congr rfl fun k _ => Finset.sum_congr rfl fun d _ => ?_
  rw [flat_apply]

/-- The second guarded length at `(B, 0)`: the square root of the flat sum of squares, bounded below by the guard. -/
theorem norm2_apply (x0 : (⟨S4096x128x512, .f32⟩ : BufTy).Contents (Elt Ideal)) (x1 : (⟨S512x48, .f32⟩ : BufTy).Contents (Elt Ideal))
    (x2 x3 x4 x5 : (⟨S48, .f32⟩ : BufTy).Contents (Elt Ideal)) (x6 : (⟨S1x512x32, .f32⟩ : BufTy).Contents (Elt Ideal))
    (B : Fin 4096) :
    val_main_v43 (F := Ideal) x0 x1 x2 x3 x4 x5 x6 (ix2 B 0)
      = norm2 (scoreR (xrow x0 B) (cmat x1) (vec x2) (vec x3) (vec x4) (vec x5)) (xrow x0 B) (cdk x6) := by
  rw [val_main_v43_apply, Ideal.maximumf_def, val_main_v41_apply, Ideal.hostUnary_sqrt_def, val_main_call1_v2_apply,
    val_main_call1_v1_apply, val_main_call1_cst_apply, Ideal.ofBits_def, Ideal.ofBits_zero_f32, zero_add,
    val_main_v42_apply, val_main_cst_5_apply, Ideal.ofBits_def]
  unfold norm2
  refine congrArg (fun s => max (Ideal.sqrt s) guard) ?_
  rw [← flat_sum_sq]
  refine Finset.sum_congr rfl fun j _ => ?_
  have e : idx_main_call1_v1 (idx_main_call1_v2 (ix2 B 0)) j = ix2 B j :=
    funext fun a => Fin.ext (by match a with | ⟨0, _⟩ => rfl | ⟨1, _⟩ => rfl)
  rw [val_main_call1_v0_apply, Ideal.mulf_def, e]

/-- The reference's result at batch row `B`, coordinate `d`, kept cluster `k` (flat index `32 · d + k`). -/
theorem pooled_apply (x0 : (⟨S4096x128x512, .f32⟩ : BufTy).Contents (Elt Ideal)) (x1 : (⟨S512x48, .f32⟩ : BufTy).Contents (Elt Ideal))
    (x2 x3 x4 x5 : (⟨S48, .f32⟩ : BufTy).Contents (Elt Ideal)) (x6 : (⟨S1x512x32, .f32⟩ : BufTy).Contents (Elt Ideal))
    (B : Fin 4096) (d : Fin 512) (k : Fin 32) :
    val_main_v45 (F := Ideal) x0 x1 x2 x3 x4 x5 x6 (ix2 B ⟨32 * d.val + k.val, Cert.LibSumBlocks.block_lt (A := 512) (B := 32) rfl d k⟩)
      = pooled (scoreR (xrow x0 B) (cmat x1) (vec x2) (vec x3) (vec x4) (vec x5)) (xrow x0 B) (cdk x6) d k := by
  have e : idx_main_v44 (ix2 B ⟨32 * d.val + k.val, Cert.LibSumBlocks.block_lt (A := 512) (B := 32) rfl d k⟩) = ix2 B 0 :=
    funext fun a => Fin.ext (by match a with | ⟨0, _⟩ => rfl | ⟨1, _⟩ => rfl)
  rw [val_main_v45_apply, Ideal.hostDivf_def, val_main_v44_apply, e, flat_apply, norm2_apply]
  rfl

end Cert.Vlad.Ref

end
-- ==== Proof.Affine.lean ====
/-
  The one law between the two ways of assembling a score: for real numbers
  `p · (w · s) + (b − (m · w) · s) = ((p − m) · s) · w + b`.
  On the extended reals it needs every factor finite; the inverse deviation `s = rsqrt (v + eps)` is a positive real
  as soon as the variance `v` is a non-negative real, `eps` being a positive real.
-/
import proofs.«413358_j25056839205135_4_alg».proof.Proof.Spec

noncomputable section

namespace Cert.Vlad

open Idealize.ShloMosaic

/-- A finite sum of reals, read in the extended reals, is the sum of the readings. -/
theorem sum_coe {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The inverse deviation at a positive real is the real `(√r)⁻¹`. -/
theorem rsqrt_pos (r : ℝ) (hr : 0 < r) : Ideal.rsqrt (r : EReal) = (((Real.sqrt r)⁻¹ : ℝ) : EReal) := by
  rw [Ideal.rsqrt_coe, if_neg (not_lt.mpr hr.le), if_neg hr.ne']

/-- The variance offset denotes a positive real. -/
theorem eps_pos : ∃ r : ℝ, 0 < r ∧ eps = (r : EReal) := by
  -- sign bit 0, exponent field 110, fraction field 2606508: the value (2^23 + 2606508) · 2^(110 - 127 - 23)
  refine ⟨((2 ^ 23 + 2606508 : ℕ) : ℝ) * (2 : ℝ) ^ ((110 : Int) - 127 - 23), by positivity, ?_⟩
  simp [eps, Ideal.ofBits, Ideal.ieee, -EReal.coe_mul]

/-- With real inputs and non-negative variances the folded form of a score is the unfolded one. -/
theorem score_eq (X : Fin 128 → Fin 512 → EReal) (C : Fin 512 → Fin 48 → EReal) (w b rm rv : Fin 48 → EReal)
    (hX : ∀ n d, ∃ r : ℝ, X n d = (r : EReal)) (hC : ∀ d k, ∃ r : ℝ, C d k = (r : EReal))
    (hw : ∀ k, ∃ r : ℝ, w k = (r : EReal)) (hb : ∀ k, ∃ r : ℝ, b k = (r : EReal))
    (hrm : ∀ k, ∃ r : ℝ, rm k = (r : EReal)) (hrv : ∀ k, ∃ r : ℝ, 0 ≤ r ∧ rv k = (r : EReal)) :
    scoreK X C (scaleOf w rv) (shiftOf w b rm rv) = scoreR X C w b rm rv := by
  obtain ⟨e, he, hee⟩ := eps_pos
  choose x hx using hX
  choose c hc using hC
  choose ω hω using hw
  choose β hβ using hb
  choose μ hμ using hrm
  choose v hv0 hv using hrv
  funext n k
  -- the raw product p = Σ_d x n d · c d k is a real
  have hP : (∑ d : Fin 512, X n d * C d k) = ((∑ d : Fin 512, x n d * c d k : ℝ) : EReal) := by
    rw [← sum_coe]
    refine Finset.sum_congr rfl fun d _ => ?_
    rw [hx, hc, EReal.coe_mul]
  -- the inverse deviation s = (√(v + e))⁻¹ is a real, v + e being positive
  have hs : Ideal.rsqrt (rv k + eps) = (((Real.sqrt (v k + e))⁻¹ : ℝ) : EReal) := by
    rw [hv, hee, ← EReal.coe_add]
    exact rsqrt_pos _ (by linarith [hv0 k])
  -- p · (ω · s) + (β − (μ · ω) · s) = ((p − μ) · s) · ω + β among reals
  simp only [scoreK, scoreR, scaleOf, shiftOf]
  rw [hP, hs, hω, hβ, hμ]
  simp only [← EReal.coe_mul, ← EReal.coe_sub, ← EReal.coe_add]
  congr 1
  ring

end Cert.Vlad

end
-- ==== Proof.PreRead.lean ====
/-
  What the precondition says entry by entry: every entry of every input is a real number, and every
  variance is a non-negative real.
-/
import proofs.«413358_j25056839205135_4_alg».proof.Pre_finite_inputs
import proofs.«413358_j25056839205135_4_alg».proof.Proof.Gen.Pre_finite_inputs
import Idealize.ShloMosaic.Lib.ReduceAll
import Idealize.ShloMosaic.Lib.ValueIdx
import Idealize.ShloMosaic.Lib.StableHlo.Predicate
import Idealize.ShloMosaic.PureOps.Ideal.Laws

noncomputable section

namespace Cert.Vlad

open Idealize.ShloMosaic Cert.Pre_finite_inputs

/-- The rank-0 shape has a single index. -/
instance subsingleton_scalar_idx : Subsingleton S_.Idx := ⟨fun a b => funext fun d => d.elim0⟩

/-- The word 0x7F800000 read as an extended real is +∞. -/
theorem inf_word : Ideal.ofBits .f32 0x7F800000#32 = (⊤ : EReal) := by simp [Ideal.ofBits, Ideal.ieee]

/-- If |x| = max x (-x) compares strictly below +∞ then x is neither -∞ nor +∞, so it is a real. -/
theorem real_of_abs_lt (x : EReal) (h : Ideal.cmp .olt (max x (-x)) (⊤ : EReal) = 1#1) :
    ∃ r : ℝ, x = (r : EReal) := by
  unfold Ideal.cmp at h
  have h' : max x (-x) < ⊤ := by simpa [StableHlo.Predicate.ofBool_eq_one_iff] using h
  induction x using EReal.rec with
  | bot => simp at h'
  | coe r => exact ⟨r, rfl⟩
  | top => simp at h'

/-- If the comparison "x ≥ 0" (0 the zero word) holds then 0 ≤ x. -/
theorem nonneg_of_oge (x : EReal) (h : Ideal.cmp .oge x (Ideal.ofBits .f32 0x00000000#32) = 1#1) : (0 : EReal) ≤ x := by
  rw [Ideal.ofBits_zero_f32] at h
  unfold Ideal.cmp at h
  simpa [StableHlo.Predicate.ofBool_eq_one_iff] using h

/-- The conjunction over all entries i of "|a i| < +∞" being true makes every entry of the array a real
    number: the conjunction reads off at each index i, where the broadcast +∞ word is read. -/
theorem real_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .olt (Host.absf a) (broadcastInDim s ![] hb (constant S_ .f32 0x7F800000#32))) init hr hu j = 1#1)
    (i : s.Idx) : ∃ r : ℝ, a i = (r : EReal) := by
  have hi := Host.reduce_andi_all _ init hr hu j e i
  apply real_of_abs_lt
  rw [← inf_word]
  exact hi

/-- The conjunction over all entries i of "a i ≥ 0" being true makes every entry non-negative. -/
theorem nonneg_of_all {s : Shape} {axes : List (Fin s.rank)} (a : FVec Ideal s .f32)
    (hb : S_.BroadcastsInDim s (![] : Fin 0 → Fin s.rank)) (hr : s.ReducesTo axes S_) (hu : 0 < S_.numel)
    (init : IVec S_ 1) (j : S_.Idx)
    (e : Host.reduce IntOp.andi
          (cmpf .oge a (broadcastInDim s ![] hb (constant S_ .f32 0x00000000#32))) init hr hu j = 1#1)
    (i : s.Idx) : (0 : EReal) ≤ a i := by
  have hi := Host.reduce_andi_all _ init hr hu j e i
  exact nonneg_of_oge (a i) hi

/-- The precondition, read: all seven inputs real entry by entry, the sixth (the variances) non-negative. -/
theorem reals_of_pre (a0 : FVec Ideal S4096x128x512 .f32) (a1 : FVec Ideal S512x48 .f32)
    (a2 a3 a4 a5 : FVec Ideal S48 .f32) (a6 : FVec Ideal S1x512x32 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal))
    ∧ (∀ i, ∃ r : ℝ, 0 ≤ r ∧ a5 i = (r : EReal)) ∧ (∀ i, ∃ r : ℝ, a6 i = (r : EReal)) := by
  -- the one-bit result at its single index, as a nested conjunction of eight one-bit words
  have h0 := congrFun h ValueIdx.ix0
  dsimp only [fn, fn_part1, fn_part2] at h0
  -- split off, from the outside in: variances ≥ 0, then the finiteness of inputs 6, 5, 4, 3, 2, 1, 0
  obtain ⟨h33, hge⟩ := IntOp.andi_eq_one.1 h0
  obtain ⟨h28, hf6⟩ := IntOp.andi_eq_one.1 h33
  obtain ⟨h23, hf5⟩ := IntOp.andi_eq_one.1 h28
  obtain ⟨h18, hf4⟩ := IntOp.andi_eq_one.1 h23
  obtain ⟨h13, hf3⟩ := IntOp.andi_eq_one.1 h18
  obtain ⟨h8, hf2⟩ := IntOp.andi_eq_one.1 h13
  obtain ⟨hf0, hf1⟩ := IntOp.andi_eq_one.1 h8
  refine ⟨real_of_all a0 _ _ _ _ _ hf0, real_of_all a1 _ _ _ _ _ hf1, real_of_all a2 _ _ _ _ _ hf2,
    real_of_all a3 _ _ _ _ _ hf3, real_of_all a4 _ _ _ _ _ hf4, ?_, real_of_all a6 _ _ _ _ _ hf6⟩
  -- a variance is real and non-negative as an extended real, hence a non-negative real
  intro i
  obtain ⟨r, hr⟩ := real_of_all a5 _ _ _ _ _ hf5 i
  have hpos := nonneg_of_all a5 _ _ _ _ _ hge i
  rw [hr] at hpos
  exact ⟨r, EReal.coe_nonneg.1 hpos, hr⟩

end Cert.Vlad

end
-- ==== Proof.Bridge.lean ====
/-
  The two results are one array. At batch row `B` and flat index `j = 32 · d + k` the kernel's result is the pooled
  value of row `B` with scores in the folded form (product times scale plus shift), the reference's is the pooled value
  with scores in the unfolded form (centred product times inverse deviation times weight plus bias). Pooling is one
  function of the scores, and under the precondition (every input real, every variance non-negative) the two forms of a
  score agree.
-/
import proofs.«413358_j25056839205135_4_alg».proof.Proof.KernelValue
import proofs.«413358_j25056839205135_4_alg».proof.Proof.RefPooled
import proofs.«413358_j25056839205135_4_alg».proof.Proof.Affine
import proofs.«413358_j25056839205135_4_alg».proof.Proof.PreRead

noncomputable section

namespace Cert.Vlad

open Idealize.ShloMosaic Idealize.ShloMosaic.TcCoe Idealize.SL.Sem Idealize.ShloMosaic.ValueIdx

/-- The kernel's result is the reference's composed term of the same arguments, under the precondition. -/
theorem result_eq (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (Run.aX m c) (Run.aC m c) (Run.aW m c) (Run.aB m c) (Run.aM m c) (Run.aV m c) (Run.aK m c) = fun _ => 1#1) :
    Run.result m c
      = Cert.ReferenceIdeal.Read.val_main_v45 (F := Ideal) (Run.aX m c) (Run.aC m c) (Run.aW m c) (Run.aB m c) (Run.aM m c) (Run.aV m c) (Run.aK m c) := by
  obtain ⟨hX, hC, hW, hB, hM, hV, -⟩ := reals_of_pre _ _ _ _ _ _ _ hpre
  funext i
  -- split the index into batch row and flat index, the flat index into coordinate and kept cluster
  obtain ⟨B, j, rfl⟩ : ∃ (B : Fin 4096) (j : Fin 16384), i = ix2 B j := ⟨i 0, i 1, eq_ix2 i⟩
  obtain ⟨d, k, rfl⟩ : ∃ (d : Fin 512) (k : Fin 32),
      j = ⟨32 * d.val + k.val, Cert.LibSumBlocks.block_lt (A := 512) (B := 32) rfl d k⟩ :=
    ⟨⟨j.val / 32, by have := j.isLt; omega⟩, ⟨j.val % 32, Nat.mod_lt _ (by norm_num)⟩,
      Fin.ext (by show j.val = 32 * (j.val / 32) + j.val % 32; omega)⟩
  -- the reshape reads the output array at (B, d, k)
  have hres : Run.result m c (ix2 B ⟨32 * d.val + k.val, Cert.LibSumBlocks.block_lt (A := 512) (B := 32) rfl d k⟩)
      = Run.G m c (ix3 B d k) := by
    unfold Run.result
    refine shapeCast_apply _ _ _ _ ?_
    rw [Shape.rowMajor_val_three, Shape.rowMajor_val_two]
    show (B.val * 512 + d.val) * 32 + k.val = B.val * 16384 + (32 * d.val + k.val)
    omega
  refine hres.trans ?_
  refine Eq.trans ?_ (Ref.pooled_apply (Run.aX m c) (Run.aC m c) (Run.aW m c) (Run.aB m c) (Run.aM m c) (Run.aV m c) (Run.aK m c) B d k).symm
  -- both sides pool the same row; the scores agree
  have hs := score_eq (Run.gx m c B) (Run.gC m c) (Run.gv (Run.aW m c)) (Run.gv (Run.aB m c)) (Run.gv (Run.aM m c)) (Run.gv (Run.aV m c))
    (fun n dd => hX _) (fun dd kk => hC _) (fun kk => hW _) (fun kk => hB _) (fun kk => hM _) (fun kk => hV _)
  unfold Run.G
  show pooled (scoreK (Run.gx m c B) (Run.gC m c) _ _) (Run.gx m c B) (Run.gK m c) d k = _
  rw [hs]

end Cert.Vlad

end
-- ==== Proof.lean ====
/-
  Soft-assignment pooling with residuals: the kernel against its reference, over the extended reals.

  Both programs score every descriptor of a batch row against 48 clusters, turn the scores into weights by the shifted
  exponential quotient, keep 32 clusters, form the weighted residuals, and normalize twice with a guarded length. The kernel
  folds the batch-norm vectors into a scale and a shift beforehand; the reference applies them one after the other. The
  two agree where every input is a real number and every variance is non-negative (then `rsqrt (v + eps)` is a real and
  `p · (w · s) + (b − (m · w) · s) = ((p − m) · s) · w + b`); where a variance is below `−eps` the inverse deviation is
  not a number in either program and the two forms of a score part, so the claim is stated under that domain.

  The frames are the generated ones (the reference's is its run with the result dropped); the idealization rewrote nothing,
  so it preserves trivially; the value claim sets the kernel's run (`Cert.Vlad.Run.run`) beside the reference's.
-/
import proofs.«413358_j25056839205135_4_alg».proof.Defs
import proofs.«413358_j25056839205135_4_alg».proof.Proof.Gen.Kernel
import proofs.«413358_j25056839205135_4_alg».proof.Proof.Gen.Kernel.Frame
import proofs.«413358_j25056839205135_4_alg».proof.Proof.Gen.KernelIdeal
import proofs.«413358_j25056839205135_4_alg».proof.Proof.Gen.KernelIdeal.Frame
import proofs.«413358_j25056839205135_4_alg».proof.Proof.Gen.ReferenceIdeal
import proofs.«413358_j25056839205135_4_alg».proof.Proof.Gen.Pre_finite_inputs
import proofs.«413358_j25056839205135_4_alg».proof.Proof.Gen.ReferenceIdeal.Run
import proofs.«413358_j25056839205135_4_alg».proof.Proof.Gen.ReferenceIdeal.Read
import proofs.«413358_j25056839205135_4_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the pooled value of every batch row. -/
theorem algebraic : Cert.algebraic_KernelIdeal_ReferenceIdeal := by
  intro m ρ m' ρ' hpre hagree
  refine ⟨fun c => Cert.Vlad.Run.result m c, Cert.Vlad.Run.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v45_eq, h0, h1, h2, h3, h4, h5, h6]
  exact (Cert.Vlad.result_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
